-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x1024 : Shape := ⟨2, ![4096, 1024]⟩
abbrev S1024x22016 : Shape := ⟨2, ![1024, 22016]⟩
abbrev S11008x1024 : Shape := ⟨2, ![11008, 1024]⟩
abbrev S1024x4096 : Shape := ⟨2, ![1024, 4096]⟩
abbrev S22016 : Shape := ⟨1, ![22016]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x22016 : S_.BroadcastsInDim S1024x22016 (![] : Fin 0 → Fin S1024x22016.rank)
  reducesTo_S1024x22016_S_d0_1 : S1024x22016.ReducesTo [0, 1] S_
  bcast_S_S11008x1024 : S_.BroadcastsInDim S11008x1024 (![] : Fin 0 → Fin S11008x1024.rank)
  reducesTo_S11008x1024_S_d0_1 : S11008x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S22016 : S_.BroadcastsInDim S22016 (![] : Fin 0 → Fin S22016.rank)
  reducesTo_S22016_S_d0 : S22016.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S22016 .f32) (main_arg6 : FVec F S4096 .f32) (main_v13 : IVec S_ 1) (main_v16 : IVec S11008x1024 1) : IVec S_ 1 :=
  let main_c_5 : IVec S_ 1 := constantI S_ 1 1#1
  let main_v17 : IVec S_ 1 := (fun x v => Host.reduce IntOp.andi x v reducesTo_S11008x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S22016 .f32 := Host.absf main_arg5
  let main_cst_8 : FVec F S_ .f32 := constant S_ .f32 0x7F800000#32
  let main_v25 : FVec F S22016 .f32 := broadcastInDim S22016 ![] bcast_S_S22016 main_cst_8
  let main_v26 : IVec S22016 1 := cmpf .olt main_v24 main_v25
  let main_c_9 : IVec S_ 1 := constantI S_ 1 1#1
  let main_v27 : IVec S_ 1 := (fun x v => Host.reduce IntOp.andi x v reducesTo_S22016_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S2x2048x4096 .f32) (main_arg1 : FVec F S4096x1024 .f32) (main_arg2 : FVec F S1024x22016 .f32) (main_arg3 : FVec F S11008x1024 .f32) (main_arg4 : FVec F S1024x4096 .f32) (main_arg5 : FVec F S22016 .f32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x22016 .f32 := Host.absf main_arg2
  let main_cst_2 : FVec F S_ .f32 := constant S_ .f32 0x7F800000#32
  let main_v10 : FVec F S1024x22016 .f32 := broadcastInDim S1024x22016 ![] bcast_S_S1024x22016 main_cst_2
  let main_v11 : IVec S1024x22016 1 := cmpf .olt main_v9 main_v10
  let main_c_3 : IVec S_ 1 := constantI S_ 1 1#1
  let main_v12 : IVec S_ 1 := (fun x v => Host.reduce IntOp.andi x v reducesTo_S1024x22016_S_d0_1 h_S_) main_v11 main_c_3
  let main_v13 : IVec S_ 1 := andi main_v8 main_v12
  let main_v14 : FVec F S11008x1024 .f32 := Host.absf main_arg3
  let main_cst_4 : FVec F S_ .f32 := constant S_ .f32 0x7F800000#32
  let main_v15 : FVec F S11008x1024 .f32 := broadcastInDim S11008x1024 ![] bcast_S_S11008x1024 main_cst_4
  let main_v16 : IVec S11008x1024 1 := cmpf .olt main_v14 main_v15
  fn_part1 (F := F) main_arg4 main_arg5 main_arg6 main_v13 main_v16
-- ==== Kernel.lean ====
abbrev S2x2048x4096 : Shape := ⟨3, ![2, 2048, 4096]⟩
abbrev S4096x1024 : Shape := ⟨2, ![4096, 1024]⟩
abbrev S1024x22016 : Shape := ⟨2, ![1024, 22016]⟩
abbrev S11008x1024 : Shape := ⟨2, ![11008, 1024]⟩
abbrev S1024x4096 : Shape := ⟨2, ![1024, 4096]⟩
abbrev S22016 : Shape := ⟨1, ![22016]⟩
abbrev S4096 : Shape := ⟨1, ![4096]⟩
abbrev S4096x4096 : Shape := ⟨2, ![4096, 4096]⟩
abbrev S1024x11008 : Shape := ⟨2, ![1024, 11008]⟩
abbrev S11008 : Shape := ⟨1, ![11008]⟩
abbrev S1x11008 : Shape := ⟨2, ![1, 11008]⟩
abbrev S1x4096 : Shape := ⟨2, ![1, 4096]⟩
abbrev S256x4096 : Shape := ⟨2, ![256, 4096]⟩
abbrev S1024x256 : Shape := ⟨2, ![1024, 256]⟩
abbrev S1x256 : Shape := ⟨2, ![1, 256]⟩
abbrev S256x1024 : Shape := ⟨2, ![256, 1024]⟩
abbrev S256x256 : Shape := ⟨2, ![256, 256]⟩

abbrev nBuf : Space → Nat
  | .hbm => 23
  | .vmem => 19
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S1024x22016, .f32⟩
  | .hbm, ⟨3, _⟩ => ⟨S11008x1024, .f32⟩
  | .hbm, ⟨4, _⟩ => ⟨S1024x4096, .f32⟩
  | .hbm, ⟨5, _⟩ => ⟨S22016, .f32⟩
  | .hbm, ⟨6, _⟩ => ⟨S4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S1024x11008, .f32⟩
  | .hbm, ⟨11, _⟩ => ⟨S1024x11008, .bf16⟩
  | .hbm, ⟨12, _⟩ => ⟨S1024x11008, .f32⟩
  | .hbm, ⟨13, _⟩ => ⟨S1024x11008, .bf16⟩
  | .hbm, ⟨14, _⟩ => ⟨S11008, .f32⟩
  | .hbm, ⟨15, _⟩ => ⟨S1x11008, .f32⟩
  | .hbm, ⟨16, _⟩ => ⟨S11008, .f32⟩
  | .hbm, ⟨17, _⟩ => ⟨S1x11008, .f32⟩
  | .hbm, ⟨18, _⟩ => ⟨S11008x1024, .bf16⟩
  | .hbm, ⟨19, _⟩ => ⟨S1024x4096, .bf16⟩
  | .hbm, ⟨20, _⟩ => ⟨S1x4096, .f32⟩
  | .hbm, ⟨21, _⟩ => ⟨S4096x4096, .f32⟩
  | .hbm, ⟨22, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1024x4096, .bf16⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S256x1024, .f32⟩
  | .local _ .vmem, ⟨18, _⟩ => ⟨S256x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 43], ![false, false]⟩

def k0_cond2 (i : grid0.Coords) : BitVec 1 :=
  let arg1 : BitVec 32 := BitVec.ofNat 32 (i 1).val
  let c42_i32 : BitVec 32 := 42#32
  let v31 : BitVec 1 := Scalar.cmpi .eq arg1 c42_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S2x2048x4096_S4096x4096 : S2x2048x4096.ShapeCasts S4096x4096
  bitsLt_bf16_f32 : FTy.bits .bf16 < FTy.bits .f32
  slices_S1024x22016_S1024x11008_0_0 : S1024x22016.Slices ![0, 0] S1024x11008
  slices_S1024x22016_S1024x11008_0_11008 : S1024x22016.Slices ![0, 11008] S1024x11008
  slices_S22016_S11008_0 : S22016.Slices ![0] S11008
  shapeCasts_S11008_S1x11008 : S11008.ShapeCasts S1x11008
  slices_S22016_S11008_11008 : S22016.Slices ![11008] S11008
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S4096x4096_S2x2048x4096 : S4096x4096.ShapeCasts S2x2048x4096
  dot_S256x4096_S4096x1024_S256x1024_1_0_0_1_n_n_wf : DotDims.WF S256x4096 S4096x1024 S256x1024 [1] [0] [0] [1] [] []
  dot_S256x1024_S1024x256_S256x256_1_0_0_1_n_n_wf : DotDims.WF S256x1024 S1024x256 S256x256 [1] [0] [0] [1] [] []
  dot_S256x256_S256x1024_S256x1024_1_0_0_1_n_n_wf : DotDims.WF S256x256 S256x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x11008.size a
  hwx0_2 : ∀ i : grid0.Coords, EltTy.bits .bf16 = 32 ∨ (Rect.block (s := S1024x11008) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x11008.size a
  hwx0_3 : ∀ i : grid0.Coords, EltTy.bits .bf16 = 32 ∨ (Rect.block (s := S1024x11008) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S11008x1024.size a
  hwx0_6 : ∀ i : grid0.Coords, EltTy.bits .bf16 = 32 ∨ (Rect.block (s := S11008x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S4096x4096.size a
  hwx0_9 : ∀ i : grid0.Coords, EltTy.bits .f32 = 32 ∨ (Rect.block (s := S4096x4096) S256x4096.size (cc0_transform_9 i) (hinb0_9 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x1024 : Shape := ⟨2, ![4096, 1024]⟩
abbrev S1024x22016 : Shape := ⟨2, ![1024, 22016]⟩
abbrev S11008x1024 : Shape := ⟨2, ![11008, 1024]⟩
abbrev S1024x4096 : Shape := ⟨2, ![1024, 4096]⟩
abbrev S22016 : Shape := ⟨1, ![22016]⟩
abbrev S4096 : Shape := ⟨1, ![4096]⟩
abbrev S2x2048x1024 : Shape := ⟨3, ![2, 2048, 1024]⟩
abbrev S2x2048x22016 : Shape := ⟨3, ![2, 2048, 22016]⟩
abbrev S1x1x22016 : Shape := ⟨3, ![1, 1, 22016]⟩
abbrev S2x2048x11008 : Shape := ⟨3, ![2, 2048, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S1024x22016, .f32⟩
  | .hbm, ⟨3, _⟩ => ⟨S11008x1024, .f32⟩
  | .hbm, ⟨4, _⟩ => ⟨S1024x4096, .f32⟩
  | .hbm, ⟨5, _⟩ => ⟨S22016, .f32⟩
  | .hbm, ⟨6, _⟩ => ⟨S4096, .f32⟩
  | .hbm, ⟨7, _⟩ => ⟨S2x2048x1024, .f32⟩
  | .hbm, ⟨8, _⟩ => ⟨S2x2048x22016, .f32⟩
  | .hbm, ⟨9, _⟩ => ⟨S1x1x22016, .f32⟩
  | .hbm, ⟨10, _⟩ => ⟨S2x2048x22016, .f32⟩
  | .hbm, ⟨11, _⟩ => ⟨S2x2048x22016, .f32⟩
  | .hbm, ⟨12, _⟩ => ⟨S2x2048x11008, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S_, .f32⟩
  | .hbm, ⟨17, _⟩ => ⟨S2x2048x11008, .f32⟩
  | .hbm, ⟨18, _⟩ => ⟨S2x2048x11008, .f32⟩
  | .hbm, ⟨19, _⟩ => ⟨S_, .f32⟩
  | .hbm, ⟨20, _⟩ => ⟨S2x2048x11008, .f32⟩
  | .hbm, ⟨21, _⟩ => ⟨S2x2048x11008, .f32⟩
  | .hbm, ⟨22, _⟩ => ⟨S2x2048x11008, .f32⟩
  | .hbm, ⟨23, _⟩ => ⟨S2x2048x11008, .f32⟩
  | .hbm, ⟨24, _⟩ => ⟨S2x2048x1024, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S22016_S1x1x22016_2 : S22016.BroadcastsInDim S1x1x22016 (![2] : Fin 1 → Fin S1x1x22016.rank)
  bcast_S1x1x22016_S2x2048x22016_0_1_2 : S1x1x22016.BroadcastsInDim S2x2048x22016 (![0, 1, 2] : Fin 3 → Fin S2x2048x22016.rank)
  slices_S2x2048x22016_S2x2048x11008_0_0_0 : S2x2048x22016.Slices ![0, 0, 0] S2x2048x11008
  slices_S2x2048x22016_S2x2048x11008_0_0_11008 : S2x2048x22016.Slices ![0, 0, 11008] S2x2048x11008
  bcast_S_S2x2048x11008 : S_.BroadcastsInDim S2x2048x11008 (![] : Fin 0 → Fin S2x2048x11008.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x1024_S2x2048x1024_2_0_01_1_n_n_wf : DotDims.WF S2x2048x4096 S4096x1024 S2x2048x1024 [2] [0] [0, 1] [1] [] []
  dot_S2x2048x1024_S1024x22016_S2x2048x22016_2_0_01_1_n_n_wf : DotDims.WF S2x2048x1024 S1024x22016 S2x2048x22016 [2] [0] [0, 1] [1] [] []
  dot_S2x2048x11008_S11008x1024_S2x2048x1024_2_0_01_1_n_n_wf : DotDims.WF S2x2048x11008 S11008x1024 S2x2048x1024 [2] [0] [0, 1] [1] [] []
  dot_S2x2048x1024_S1024x4096_S2x2048x4096_2_0_01_1_n_n_wf : DotDims.WF S2x2048x1024 S1024x4096 S2x2048x4096 [2] [0] [0, 1] [1] [] []

variable [Facts₀]

def dot_S2x2048x4096_S4096x1024_S2x2048x1024_2_0_01_1_n_n : DotDims S2x2048x4096 S4096x1024 S2x2048x1024 where
  lhsContracting := [2]
  rhsContracting := [0]
  lhsNonContracting := [0, 1]
  rhsNonContracting := [1]
  lhsBatch := []
  rhsBatch := []
  wf := dot_S2x2048x4096_S4096x1024_S2x2048x1024_2_0_01_1_n_n_wf
def dot_S2x2048x1024_S1024x22016_S2x2048x22016_2_0_01_1_n_n : DotDims S2x2048x1024 S1024x22016 S2x2048x22016 where
  lhsContracting := [2]
  rhsContracting := [0]
  lhsNonContracting := [0, 1]
  rhsNonContracting := [1]
  lhsBatch := []
  rhsBatch := []
  wf := dot_S2x2048x1024_S1024x22016_S2x2048x22016_2_0_01_1_n_n_wf
def dot_S2x2048x11008_S11008x1024_S2x2048x1024_2_0_01_1_n_n : DotDims S2x2048x11008 S11008x1024 S2x2048x1024 where
  lhsContracting := [2]
  rhsContracting := [0]
  lhsNonContracting := [0, 1]
  rhsNonContracting := [1]
  lhsBatch := []
  rhsBatch := []
  wf := dot_S2x2048x11008_S11008x1024_S2x2048x1024_2_0_01_1_n_n_wf
def dot_S2x2048x1024_S1024x4096_S2x2048x4096_2_0_01_1_n_n : DotDims S2x2048x1024 S1024x4096 S2x2048x4096 where
  lhsContracting := [2]
  rhsContracting := [0]
  lhsNonContracting := [0, 1]
  rhsNonContracting := [1]
  lhsBatch := []
  rhsBatch := []
  wf := dot_S2x2048x1024_S1024x4096_S2x2048x4096_2_0_01_1_n_n_wf

class Facts : Prop extends Facts₀ where

variable [Facts]
-- ==== Proof.Pieces.lean ====
/-
  What each case of the body leaves in the carried scratch and in the output block, as the body's stored values.

  At the first chunk of a row tile the body stores the projection block, zeroes the accumulator, and adds the first
  chunk's share to that zero; at a later chunk it leaves the projection as it found it and adds the chunk's share to
  the accumulator it found; at the last chunk it also stores the result block computed from that updated accumulator.
  A load that follows a store to the same whole buffer reads what was stored.
-/
import proofs.«108089_j28140625723484_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- First chunk of a row tile: the projection scratch ends holding the tile's projection block. -/
theorem first_proj (c : Dev nD) (i : grid0.Coords) (arg2 : Memref sig .tc .vmem S256x4096 .bf16) (harg2 : arg2.IsWhole) (arg3 : Memref sig .tc .vmem S4096x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x4096 .bf16) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .f32) (harg13 : arg13.IsWhole) (hc0 : cond0_0 i) (hc1 : ¬cond0_1 i)
    (x0 : Vec F S256x4096 .bf16) (x1 : Vec F S4096x1024 .bf16) (x2 : Vec F S1024x256 .bf16) (x3 : Vec F S1024x256 .bf16) (x4 : Vec F S1x256 .f32) (x5 : Vec F S1x256 .f32) (x6 : Vec F S256x1024 .bf16) (x7 : Vec F S1024x4096 .bf16) (x8 : Vec F S1x4096 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg10.read_unread, harg12.read_unread, harg13.read_unread, View.readCov_unit_zero (S := S256x1024) _ hz,
    View.ld_unit_zero (S := S256x4096) hz, View.ld_unit_zero (S := S4096x1024) hz, View.ld_unit_zero (S := S1024x256) hz, View.ld_unit_zero (S := S1x256) hz,
    View.ld_unit_zero (S := S256x1024) hz, View.ld_unit_zero (S := S1024x4096) hz, View.ld_unit_zero (S := S1x4096) hz]

/-- First chunk: the accumulator ends holding the zero block plus the first chunk's share, computed from the projection
    block just stored. -/
theorem first_acc (c : Dev nD) (i : grid0.Coords) (arg2 : Memref sig .tc .vmem S256x4096 .bf16) (harg2 : arg2.IsWhole) (arg3 : Memref sig .tc .vmem S4096x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x4096 .bf16) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .f32) (harg13 : arg13.IsWhole) (hc0 : cond0_0 i) (hc1 : ¬cond0_1 i)
    (x0 : Vec F S256x4096 .bf16) (x1 : Vec F S4096x1024 .bf16) (x2 : Vec F S1024x256 .bf16) (x3 : Vec F S1024x256 .bf16) (x4 : Vec F S1x256 .f32) (x5 : Vec F S1x256 .f32) (x6 : Vec F S256x1024 .bf16) (x7 : Vec F S1024x4096 .bf16) (x8 : Vec F S1x4096 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 (k0_pay2 x0 x1) x2 x4 x3 x5 k0_pay3 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S256x1024) hz]
  simp only [View.readAt_eq_ld, harg2.read_unread, harg3.read_unread, harg4.read_unread, harg5.read_unread, harg6.read_unread, harg7.read_unread,
    harg8.read_unread, harg9.read_unread, harg10.read_unread, harg12.read_unread, harg13.read_unread, View.readCov_unit_zero (S := S256x1024) _ hz,
    View.ld_unit_zero (S := S256x4096) hz, View.ld_unit_zero (S := S4096x1024) hz, View.ld_unit_zero (S := S1024x256) hz, View.ld_unit_zero (S := S1x256) hz,
    View.ld_unit_zero (S := S256x1024) hz, View.ld_unit_zero (S := S1024x4096) hz, View.ld_unit_zero (S := S1x4096) hz]

/-- A middle chunk: the accumulator it found plus the chunk's share, computed from the projection it found. -/
theorem mid_acc (c : Dev nD) (i : grid0.Coords) (arg2 : Memref sig .tc .vmem S256x4096 .bf16) (harg2 : arg2.IsWhole) (arg3 : Memref sig .tc .vmem S4096x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x4096 .bf16) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .f32) (harg13 : arg13.IsWhole) (hc0 : ¬cond0_0 i) (hc1 : ¬cond0_1 i)
    (x0 : Vec F S256x4096 .bf16) (x1 : Vec F S4096x1024 .bf16) (x2 : Vec F S1024x256 .bf16) (x3 : Vec F S1024x256 .bf16) (x4 : Vec F S1x256 .f32) (x5 : Vec F S1x256 .f32) (x6 : Vec F S256x1024 .bf16) (x7 : Vec F S1024x4096 .bf16) (x8 : Vec F S1x4096 .f32) (xs0 : Vec F S256x1024 .f32) (xs1 : Vec F S256x1024 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 xs0 x2 x4 x3 x5 xs1 x6 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg10.read_unread, harg12.read_unread, harg13.read_unread, View.readCov_unit_zero (S := S256x1024) _ hz,
    View.ld_unit_zero (S := S256x4096) hz, View.ld_unit_zero (S := S4096x1024) hz, View.ld_unit_zero (S := S1024x256) hz, View.ld_unit_zero (S := S1x256) hz,
    View.ld_unit_zero (S := S256x1024) hz, View.ld_unit_zero (S := S1024x4096) hz, View.ld_unit_zero (S := S1x4096) hz]

/-- The last chunk updates the accumulator the same way, -/
theorem last_acc (c : Dev nD) (i : grid0.Coords) (arg2 : Memref sig .tc .vmem S256x4096 .bf16) (harg2 : arg2.IsWhole) (arg3 : Memref sig .tc .vmem S4096x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x4096 .bf16) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .f32) (harg13 : arg13.IsWhole) (hc0 : ¬cond0_0 i) (hc1 : cond0_1 i)
    (x0 : Vec F S256x4096 .bf16) (x1 : Vec F S4096x1024 .bf16) (x2 : Vec F S1024x256 .bf16) (x3 : Vec F S1024x256 .bf16) (x4 : Vec F S1x256 .f32) (x5 : Vec F S1x256 .f32) (x6 : Vec F S256x1024 .bf16) (x7 : Vec F S1024x4096 .bf16) (x8 : Vec F S1x4096 .f32) (xs0 : Vec F S256x1024 .f32) (xs1 : Vec F S256x1024 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 xs0 x2 x4 x3 x5 xs1 x6 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg10.read_unread, harg12.read_unread, harg13.read_unread, View.readCov_unit_zero (S := S256x1024) _ hz,
    View.ld_unit_zero (S := S256x4096) hz, View.ld_unit_zero (S := S4096x1024) hz, View.ld_unit_zero (S := S1024x256) hz, View.ld_unit_zero (S := S1x256) hz,
    View.ld_unit_zero (S := S256x1024) hz, View.ld_unit_zero (S := S1024x4096) hz, View.ld_unit_zero (S := S1x4096) hz]

/-- and stores the result block computed from the accumulator it has just updated. -/
theorem last_out (c : Dev nD) (i : grid0.Coords) (arg2 : Memref sig .tc .vmem S256x4096 .bf16) (harg2 : arg2.IsWhole) (arg3 : Memref sig .tc .vmem S4096x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x4096 .bf16) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .f32) (harg13 : arg13.IsWhole) (hc0 : ¬cond0_0 i) (hc1 : cond0_1 i)
    (x0 : Vec F S256x4096 .bf16) (x1 : Vec F S4096x1024 .bf16) (x2 : Vec F S1024x256 .bf16) (x3 : Vec F S1024x256 .bf16) (x4 : Vec F S1x256 .f32) (x5 : Vec F S1x256 .f32) (x6 : Vec F S256x1024 .bf16) (x7 : Vec F S1024x4096 .bf16) (x8 : Vec F S1x4096 .f32) (xs0 : Vec F S256x1024 .f32) (xs1 : Vec F S256x1024 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay1 (k0_pay4 xs0 x2 x4 x3 x5 xs1 x6) x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg10.read_unread, harg12.read_unread, harg13.read_unread, View.readCov_unit_zero (S := S256x1024) _ hz,
    View.ld_unit_zero (S := S256x4096) hz, View.ld_unit_zero (S := S4096x1024) hz, View.ld_unit_zero (S := S1024x256) hz, View.ld_unit_zero (S := S1x256) hz,
    View.ld_unit_zero (S := S256x1024) hz, View.ld_unit_zero (S := S1024x4096) hz, View.ld_unit_zero (S := S1x4096) hz]

end Cert.KernelIdeal.Pieces

end
-- ==== Proof.PointValues.lean ====
/-
  What the carried scratch and the output block hold after each grid point, as the body's stored values of the
  point's input blocks and of what the point before left.

  A point that opens a row tile (chunk 0) leaves the tile's projection block and the zero block plus the first share;
  any later point leaves the projection it found and the accumulator it found plus its share; the tile's last point
  (chunk 42) also leaves the result block of that updated accumulator.
-/
import proofs.«108089_j28140625723484_1_alg».proof.Proof.Pieces

noncomputable section

namespace Cert.KernelIdeal.PointValues

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The input blocks of a point, at their literal types. -/
abbrev xBlk (c : Dev nD) (t : Fin cfg0.N) : Vec F S256x4096 .bf16 := iblk m c 0 t
abbrev u1Blk (c : Dev nD) (t : Fin cfg0.N) : Vec F S4096x1024 .bf16 := iblk m c 1 t
abbrev gBlk (c : Dev nD) (t : Fin cfg0.N) : Vec F S1024x256 .bf16 := iblk m c 2 t
abbrev uBlk (c : Dev nD) (t : Fin cfg0.N) : Vec F S1024x256 .bf16 := iblk m c 3 t
abbrev bgBlk (c : Dev nD) (t : Fin cfg0.N) : Vec F S1x256 .f32 := iblk m c 4 t
abbrev buBlk (c : Dev nD) (t : Fin cfg0.N) : Vec F S1x256 .f32 := iblk m c 5 t
abbrev u2Blk (c : Dev nD) (t : Fin cfg0.N) : Vec F S256x1024 .bf16 := iblk m c 6 t
abbrev v2Blk (c : Dev nD) (t : Fin cfg0.N) : Vec F S1024x4096 .bf16 := iblk m c 7 t
abbrev b2Blk (c : Dev nD) (t : Fin cfg0.N) : Vec F S1x4096 .f32 := iblk m c 8 t

/-- What the point before `t` left in the projection scratch and in the accumulator. -/
abbrev prevProj (c : Dev nD) (t : Fin cfg0.N) : Vec F S256x1024 .f32 :=
  (outsAt0 m c (t.val - 1) (Nat.lt_of_le_of_lt (Nat.sub_le _ _) t.isLt)).2.1
abbrev prevAcc (c : Dev nD) (t : Fin cfg0.N) : Vec F S256x1024 .f32 :=
  (outsAt0 m c (t.val - 1) (Nat.lt_of_le_of_lt (Nat.sub_le _ _) t.isLt)).2.2

/-- The chunk's update of an accumulator `Z` from a projection `P`, at point `t`'s blocks. -/
abbrev upd (c : Dev nD) (t : Fin cfg0.N) (P Z : Vec F S256x1024 .f32) : Vec F S256x1024 .f32 :=
  k0_pay4 P (gBlk m c t) (bgBlk m c t) (uBlk m c t) (buBlk m c t) Z (u2Blk m c t)

theorem open_proj (c : Dev nD) (t : Fin cfg0.N) (h0 : t.val % 43 = 0) (h1 : ¬t.val % 43 = 42) :
    (outsAt0 m c t.val t.isLt).2.1 = k0_pay2 (xBlk m c t) (u1Blk m c t) := by
  rw [outsAt0_A m c t h0 h1]; dsimp only
  exact Pieces.first_proj c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem open_acc (c : Dev nD) (t : Fin cfg0.N) (h0 : t.val % 43 = 0) (h1 : ¬t.val % 43 = 42) :
    (outsAt0 m c t.val t.isLt).2.2 = upd m c t (k0_pay2 (xBlk m c t) (u1Blk m c t)) k0_pay3 := by
  rw [outsAt0_A m c t h0 h1]; dsimp only
  exact Pieces.first_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem mid_proj (c : Dev nD) (t : Fin cfg0.N) (h0 : ¬t.val % 43 = 0) (h1 : ¬t.val % 43 = 42) :
    (outsAt0 m c t.val t.isLt).2.1 = prevProj m c t := by
  rw [outsAt0_B m c t h0 h1]; dsimp only; rfl

theorem mid_acc (c : Dev nD) (t : Fin cfg0.N) (h0 : ¬t.val % 43 = 0) (h1 : ¬t.val % 43 = 42) :
    (outsAt0 m c t.val t.isLt).2.2 = upd m c t (prevProj m c t) (prevAcc m c t) := by
  rw [outsAt0_B m c t h0 h1]; dsimp only
  exact Pieces.mid_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem last_proj (c : Dev nD) (t : Fin cfg0.N) (h0 : ¬t.val % 43 = 0) (h1 : t.val % 43 = 42) :
    (outsAt0 m c t.val t.isLt).2.1 = prevProj m c t := by
  rw [outsAt0_C m c t h0 h1]; dsimp only; rfl

theorem last_acc (c : Dev nD) (t : Fin cfg0.N) (h0 : ¬t.val % 43 = 0) (h1 : t.val % 43 = 42) :
    (outsAt0 m c t.val t.isLt).2.2 = upd m c t (prevProj m c t) (prevAcc m c t) := by
  rw [outsAt0_C m c t h0 h1]; dsimp only
  exact Pieces.last_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

theorem last_out (c : Dev nD) (t : Fin cfg0.N) (h0 : ¬t.val % 43 = 0) (h1 : t.val % 43 = 42) :
    (outsAt0 m c t.val t.isLt).1 = k0_pay1 (upd m c t (prevProj m c t) (prevAcc m c t)) (v2Blk m c t) (b2Blk m c t) := by
  rw [outsAt0_C m c t h0 h1]; dsimp only
  exact Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.PointValues

end
-- ==== Proof.Spec.lean ====
/-
  The low-rank SwiGLU MLP as ONE function of its seven argument arrays, over the extended reals.

  With `x` flattened to 4096 rows of 4096 features, the result at row `r`, feature `h` is

      out r h = (∑ k, down r k · V2 k h) + b2 h,        down r k = ∑ j, act r j · U2 j k,
      act r j = silu (hidden r j) · hidden r (11008 + j),  silu y = y · logistic y,
      hidden r f = (∑ k, proj r k · V1 k f) + b1 f,       proj r k = ∑ h, x r h · U1 h k.

  The sum over the 11008 intermediate columns `j` may be taken 256 columns at a time, the 43 partial sums added
  in any order: addition of extended reals is commutative and associative (no finiteness is needed), so the sum
  over chunks of the sums inside a chunk is the sum over all columns (`sum_chunks`).
-/
import Idealize.ShloMosaic.PureOps.Ideal
import Idealize.ShloMosaic.Lib.ValueIdx
import Mathlib.Algebra.BigOperators.Fin

noncomputable section

namespace Cert.MlpSpec

open Idealize.ShloMosaic

/-- Column `j` of the gate half of the fused [1024, 22016] projection. -/
abbrev gateCol (j : Fin 11008) : Fin 22016 := ⟨j.val, by have := j.isLt; omega⟩
/-- Column `j` of its up half: `11008 + j`. -/
abbrev upCol (j : Fin 11008) : Fin 22016 := ⟨11008 + j.val, by have := j.isLt; omega⟩
/-- Row `p` of row tile `mi`: row `256·mi + p` of the 4096. -/
abbrev tileRow (mi : ℕ) (hmi : mi < 16) (p : Fin 256) : Fin 4096 := ⟨256 * mi + p.val, by have := p.isLt; omega⟩
/-- Column `q` of chunk `c`: column `256·c + q` of the 11008. -/
abbrev chunkCol (c : ℕ) (hc : c < 43) (q : Fin 256) : Fin 11008 := ⟨256 * c + q.val, by have := q.isLt; omega⟩

/-- `silu y = y · logistic y`. -/
def silu (y : EReal) : EReal := y * Ideal.logistic y

/-- The same with the logistic function spelt out as `1 / (1 + e^(-y))`. -/
theorem silu_eq (y : EReal) : y * Ideal.div 1 (1 + Ideal.exp (-y)) = silu y := rfl

section
variable (X : Fin 4096 → Fin 4096 → EReal) (U1 : Fin 4096 → Fin 1024 → EReal) (V1 : Fin 1024 → Fin 22016 → EReal)
  (U2 : Fin 11008 → Fin 1024 → EReal) (V2 : Fin 1024 → Fin 4096 → EReal) (b1 : Fin 22016 → EReal) (b2 : Fin 4096 → EReal)

/-- The rank-space projection `x · U1`. -/
def proj (r : Fin 4096) (k : Fin 1024) : EReal := ∑ h : Fin 4096, X r h * U1 h k
/-- The fused gate | up pre-activation `proj · V1 + b1`. -/
def hidden (r : Fin 4096) (f : Fin 22016) : EReal := (∑ k : Fin 1024, proj X U1 r k * V1 k f) + b1 f
/-- SwiGLU: `silu gate · up`. -/
def act (r : Fin 4096) (j : Fin 11008) : EReal := silu (hidden X U1 V1 b1 r (gateCol j)) * hidden X U1 V1 b1 r (upCol j)
/-- The rank-space down projection `act · U2`. -/
def down (r : Fin 4096) (k : Fin 1024) : EReal := ∑ j : Fin 11008, act X U1 V1 b1 r j * U2 j k
/-- The result `down · V2 + b2`. -/
def out (r : Fin 4096) (h : Fin 4096) : EReal := (∑ k : Fin 1024, down X U1 V1 U2 b1 r k * V2 k h) + b2 h

/-- Chunk `c`'s share of `down r k`: the 256 columns `256·c …` (nothing past the last chunk). -/
def chunk (r : Fin 4096) (k : Fin 1024) (c : ℕ) : EReal :=
  if hc : c < 43 then ∑ q : Fin 256, act X U1 V1 b1 r (chunkCol c hc q) * U2 (chunkCol c hc q) k else 0

/-- `down r k` over the first `n` chunks. -/
def downUpTo (r : Fin 4096) (k : Fin 1024) (n : ℕ) : EReal := ∑ c ∈ Finset.range n, chunk X U1 V1 U2 b1 r k c

theorem chunk_of_lt (r : Fin 4096) (k : Fin 1024) (c : ℕ) (hc : c < 43) :
    chunk X U1 V1 U2 b1 r k c = ∑ q : Fin 256, act X U1 V1 b1 r (chunkCol c hc q) * U2 (chunkCol c hc q) k := dif_pos hc

theorem downUpTo_one (r : Fin 4096) (k : Fin 1024) : downUpTo X U1 V1 U2 b1 r k 1 = chunk X U1 V1 U2 b1 r k 0 :=
  Finset.sum_range_one _

theorem downUpTo_succ (r : Fin 4096) (k : Fin 1024) (n : ℕ) :
    downUpTo X U1 V1 U2 b1 r k (n + 1) = downUpTo X U1 V1 U2 b1 r k n + chunk X U1 V1 U2 b1 r k n :=
  Finset.sum_range_succ _ _
end

/-- The sum over the 43 chunks of the sums over a chunk's 256 columns is the sum over all 11008 columns. -/
theorem sum_chunks {M : Type*} [AddCommMonoid M] (f : Fin 11008 → M) :
    ∑ c ∈ Finset.range 43, (if hc : c < 43 then ∑ q : Fin 256, f (chunkCol c hc q) else 0) = ∑ j : Fin 11008, f j := by
  let e : Fin 43 × Fin 256 ≃ Fin 11008 := finProdFinEquiv.trans (finCongr (by norm_num))
  calc ∑ c ∈ Finset.range 43, (if hc : c < 43 then ∑ q : Fin 256, f (chunkCol c hc q) else 0)
      = ∑ c : Fin 43, (if hc : c.val < 43 then ∑ q : Fin 256, f (chunkCol c.val hc q) else 0) :=
        (Fin.sum_univ_eq_sum_range (fun c => if hc : c < 43 then ∑ q : Fin 256, f (chunkCol c hc q) else 0) 43).symm
    _ = ∑ c : Fin 43, ∑ q : Fin 256, f (chunkCol c.val c.isLt q) := Finset.sum_congr rfl fun c _ => dif_pos c.isLt
    _ = ∑ x : Fin 43 × Fin 256, f (chunkCol x.1.val x.1.isLt x.2) :=
        (Fintype.sum_prod_type' fun (c : Fin 43) (q : Fin 256) => f (chunkCol c.val c.isLt q)).symm
    _ = ∑ x : Fin 43 × Fin 256, f (e x) := Finset.sum_congr rfl fun x _ => congrArg f (Fin.ext (by
          show 256 * x.1.val + x.2.val = x.2.val + 256 * x.1.val; omega))
    _ = ∑ j : Fin 11008, f j := Equiv.sum_comp e f

/-- All 43 chunks make `down`. -/
theorem downUpTo_all (X : Fin 4096 → Fin 4096 → EReal) (U1 : Fin 4096 → Fin 1024 → EReal) (V1 : Fin 1024 → Fin 22016 → EReal)
    (U2 : Fin 11008 → Fin 1024 → EReal) (b1 : Fin 22016 → EReal) (r : Fin 4096) (k : Fin 1024) :
    downUpTo X U1 V1 U2 b1 r k 43 = down X U1 V1 U2 b1 r k :=
  sum_chunks fun j => act X U1 V1 b1 r j * U2 j k

/-! ## The result as one array of the argument arrays -/

/-- Row `s` of batch `b`: row `2048·b + s` of the flattened 4096. -/
abbrev flatRow (b : Fin 2) (s : Fin 2048) : Fin 4096 := ⟨2048 * b.val + s.val, by have := b.isLt; have := s.isLt; omega⟩

/-- `x` [2, 2048, 4096] with its two leading axes flattened: row `r` is batch `r / 2048`, position `r % 2048`. -/
def flatX (x : FVec Ideal ⟨3, ![2, 2048, 4096]⟩ .f32) : Fin 4096 → Fin 4096 → EReal := fun r h =>
  x (ValueIdx.ix3 (⟨r.val / 2048, by have := r.isLt; omega⟩ : Fin 2) (⟨r.val % 2048, Nat.mod_lt _ (by norm_num)⟩ : Fin 2048) h)

theorem flatX_flatRow (x : FVec Ideal ⟨3, ![2, 2048, 4096]⟩ .f32) (b : Fin 2) (s : Fin 2048) (h : Fin 4096) :
    flatX x (flatRow b s) h = x (ValueIdx.ix3 b s h) := by
  unfold flatX
  congr 1
  have hb := b.isLt; have hs := s.isLt
  congr 1
  · exact Fin.ext (by show (2048 * b.val + s.val) / 2048 = b.val; omega)
  · exact Fin.ext (by show (2048 * b.val + s.val) % 2048 = s.val; omega)

/-- A rank-2 array as a function of its two coordinates, -/
def mat {a b : ℕ} (A : FVec Ideal ⟨2, ![a, b]⟩ .f32) : Fin a → Fin b → EReal := fun i j => A (ValueIdx.ix2 i j)
/-- a rank-1 array as a function of its coordinate. -/
def vec {n : ℕ} (v : FVec Ideal ⟨1, ![n]⟩ .f32) : Fin n → EReal := fun i => v (ValueIdx.ix1 i)

/-- THE RESULT [2, 2048, 4096] of the seven argument arrays. -/
def result (x : FVec Ideal ⟨3, ![2, 2048, 4096]⟩ .f32) (U1 : FVec Ideal ⟨2, ![4096, 1024]⟩ .f32) (V1 : FVec Ideal ⟨2, ![1024, 22016]⟩ .f32)
    (U2 : FVec Ideal ⟨2, ![11008, 1024]⟩ .f32) (V2 : FVec Ideal ⟨2, ![1024, 4096]⟩ .f32) (b1 : FVec Ideal ⟨1, ![22016]⟩ .f32)
    (b2 : FVec Ideal ⟨1, ![4096]⟩ .f32) : FVec Ideal ⟨3, ![2, 2048, 4096]⟩ .f32 := fun i =>
  out (flatX x) (mat U1) (mat V1) (mat U2) (mat V2) (vec b1) (vec b2) (flatRow (i 0) (i 1)) (i 2)

end Cert.MlpSpec

end
-- ==== Proof.Payload.lean ====
/-
  The kernel body's four stored values, read at one index over the extended reals.

  The body stores: the projection block `x · U1` (a matrix product into a zero accumulator), the zero block, the running
  down-projection `Z + (silu gate · up) · U2` with gate | up = `P · V1 + b1` on the chunk's 256 columns, and, at the last
  chunk, the result block `Z · V2 + b2`. A change of float format is the identity here, a product into the zero splat is
  the plain sum over the contracted axis, and a row [1, n] broadcast along the rows reads its column.

  Each of the four products contracts the left operand's axis 1 with the right operand's axis 0 and has no batch axis, so
  at output entry `(p, c)` and contracted position `k` the left operand is read at `(p, k)` and the right at `(k, c)`.
  That is said once per product, axis by axis, and the sum over the one-axis contraction index set is then re-indexed
  by its single coordinate.
-/
import proofs.«108089_j28140625723484_1_alg».proof.Proof.Gen.KernelIdeal.Skeleton
import proofs.«108089_j28140625723484_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The logistic function applied to an array reads, at an index, the logistic function of the entry. -/
theorem logistic_apply {s : Shape} {φ : FTy} (a : FVec Ideal s φ) (i : s.Idx) : logistic a i = Ideal.logistic (a i) := rfl

/-! ## The four products into a zero accumulator, at an entry -/

/-! ### `x · U1`: [256, 4096] times [4096, 1024] -/

theorem lhs_proj_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_proj_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_proj_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_proj_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Entry `(p, c)` of `A · B` into the zero accumulator: `∑ k, A p k · B k c` over the 4096 contracted positions. -/
theorem matmul_proj_apply {φ₁ φ₂ : FTy} (A : FVec Ideal S256x4096 φ₁) (B : FVec Ideal S4096x1024 φ₂) (p : Fin 256) (c : Fin 1024) :
    matmul dot_S256x4096_S4096x1024_S256x1024_1_0_0_1_n_n none A B (constant (F := Ideal) S256x1024 .f32 0x00000000#32) (ix2 p c)
      = ∑ k : Fin 4096, A (ix2 p k) * B (ix2 k c) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p c) ((contrEquiv1 dot_S256x4096_S4096x1024_S256x1024_1_0_0_1_n_n 4096 rfl rfl).symm k) = ix2 p k := funext fun a => Fin.ext (by
    match a with
    | ⟨0, _⟩ => exact lhs_proj_0 _ _
    | ⟨1, _⟩ => exact (lhs_proj_1 _ _).trans hk)
  have er : dot_S256x4096_S4096x1024_S256x1024_1_0_0_1_n_n.rhsIdx (ix2 p c) ((contrEquiv1 dot_S256x4096_S4096x1024_S256x1024_1_0_0_1_n_n 4096 rfl rfl).symm k) = ix2 k c := funext fun a => Fin.ext (by
    match a with
    | ⟨0, _⟩ => exact (rhs_proj_0 _ _).trans hk
    | ⟨1, _⟩ => exact rhs_proj_1 _ _)
  rw [el, er]

/-! ### `P · V1` on one chunk: [256, 1024] times [1024, 256] -/

theorem lhs_hidden_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem lhs_hidden_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem rhs_hidden_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem rhs_hidden_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- Entry `(p, c)` of `A · B` into the zero accumulator: `∑ k, A p k · B k c` over the 1024 rank positions. -/
theorem matmul_hidden_apply {φ₁ φ₂ : FTy} (A : FVec Ideal S256x1024 φ₁) (B : FVec Ideal S1024x256 φ₂) (p : Fin 256) (c : Fin 256) :
    matmul dot_S256x1024_S1024x256_S256x256_1_0_0_1_n_n none A B (constant (F := Ideal) S256x256 .f32 0x00000000#32) (ix2 p c)
      = ∑ k : Fin 1024, A (ix2 p k) * B (ix2 k c) := by
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p c) ((contrEquiv1 dot_S256x1024_S1024x256_S256x256_1_0_0_1_n_n 1024 rfl rfl).symm k) = ix2 p k := funext fun a => Fin.ext (by
    match a with
    | ⟨0, _⟩ => exact lhs_hidden_0 _ _
    | ⟨1, _⟩ => exact (lhs_hidden_1 _ _).trans hk)
  have er : dot_S256x1024_S1024x256_S256x256_1_0_0_1_n_n.rhsIdx (ix2 p c) ((contrEquiv1 dot_S256x1024_S1024x256_S256x256_1_0_0_1_n_n 1024 rfl rfl).symm k) = ix2 k c := funext fun a => Fin.ext (by
    match a with
    | ⟨0, _⟩ => exact (rhs_hidden_0 _ _).trans hk
    | ⟨1, _⟩ => exact rhs_hidden_1 _ _)
  rw [el, er]

/-! ### `act · U2` on one chunk: [256, 256] times [256, 1024] -/

theorem lhs_down_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs_down_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhs_down_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhs_down_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- Entry `(p, c)` of `A · B` into the zero accumulator: `∑ k, A p k · B k c` over the chunk's 256 columns. -/
theorem matmul_down_apply {φ₁ φ₂ : FTy} (A : FVec Ideal S256x256 φ₁) (B : FVec Ideal S256x1024 φ₂) (p : Fin 256) (c : Fin 1024) :
    matmul dot_S256x256_S256x1024_S256x1024_1_0_0_1_n_n none A B (constant (F := Ideal) S256x1024 .f32 0x00000000#32) (ix2 p c)
      = ∑ k : Fin 256, A (ix2 p k) * B (ix2 k c) := by
  simp only [matmul]
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p c) ((contrEquiv1 dot_S256x256_S256x1024_S256x1024_1_0_0_1_n_n 256 rfl rfl).symm k) = ix2 p k := funext fun a => Fin.ext (by
    match a with
    | ⟨0, _⟩ => exact lhs_down_0 _ _
    | ⟨1, _⟩ => exact (lhs_down_1 _ _).trans hk)
  have er : dot_S256x256_S256x1024_S256x1024_1_0_0_1_n_n.rhsIdx (ix2 p c) ((contrEquiv1 dot_S256x256_S256x1024_S256x1024_1_0_0_1_n_n 256 rfl rfl).symm k) = ix2 k c := funext fun a => Fin.ext (by
    match a with
    | ⟨0, _⟩ => exact (rhs_down_0 _ _).trans hk
    | ⟨1, _⟩ => exact rhs_down_1 _ _)
  rw [el, er]

/-! ### `Z · V2`: [256, 1024] times [1024, 4096] -/

theorem lhs_out_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_out_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_out_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_out_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Entry `(p, c)` of `A · B` into the zero accumulator: `∑ k, A p k · B k c` over the 1024 rank positions. -/
theorem matmul_out_apply {φ₁ φ₂ : FTy} (A : FVec Ideal S256x1024 φ₁) (B : FVec Ideal S1024x4096 φ₂) (p : Fin 256) (c : Fin 4096) :
    matmul dot_S256x1024_S1024x4096_S256x4096_1_0_0_1_n_n none A B (constant (F := Ideal) S256x4096 .f32 0x00000000#32) (ix2 p c)
      = ∑ k : Fin 1024, A (ix2 p k) * B (ix2 k c) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p c) ((contrEquiv1 dot_S256x1024_S1024x4096_S256x4096_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S256x1024_S1024x4096_S256x4096_1_0_0_1_n_n.rhsIdx (ix2 p c) ((contrEquiv1 dot_S256x1024_S1024x4096_S256x4096_1_0_0_1_n_n 1024 rfl rfl).symm k) = ix2 k c := funext fun a => Fin.ext (by
    match a with
    | ⟨0, _⟩ => exact (rhs_out_0 _ _).trans hk
    | ⟨1, _⟩ => exact rhs_out_1 _ _)
  rw [el, er]

/-! ## The four stored values -/

/-- The projection block at row `p`, rank column `k`: the sum over the 4096 features. -/
theorem pay2_apply (x0 : Vec Ideal S256x4096 .bf16) (x1 : Vec Ideal S4096x1024 .bf16) (p : Fin 256) (k : Fin 1024) :
    k0_pay2 (F := Ideal) x0 x1 (ix2 p k) = ∑ h : Fin 4096, x0 (ix2 p h) * x1 (ix2 h k) := by
  unfold k0_pay2
  simp only [shapeCast_self]
  exact matmul_proj_apply x0 x1 p k

/-- The reset block is zero. -/
theorem pay3_apply (p : Fin 256) (k : Fin 1024) : k0_pay3 (F := Ideal) (ix2 p k) = (0 : EReal) := by
  unfold k0_pay3
  simp only [shapeCast_self, broadcast_apply]
  exact Ideal.ofBits_zero_f32

/-- A chunk's pre-activation at row `p`, chunk column `q`: `(∑ r, P p r · w r q) + b q`. -/
def preact (P : Vec Ideal S256x1024 .f32) (w : Vec Ideal S1024x256 .bf16) (b : Vec Ideal S1x256 .f32) (p q : Fin 256) : EReal :=
  (∑ r : Fin 1024, P (ix2 p r) * w (ix2 r q)) + b (ix2 (0 : Fin 1) q)

/-- The body's pre-activation array (the product of `P`, its format changed, with `w` into the zero accumulator, plus
    the bias row broadcast along the 256 rows) reads `preact` at `(p, q)`. -/
theorem preact_eq (P : FVec Ideal S256x1024 .f32) (w : FVec Ideal S1024x256 .bf16) (b : FVec Ideal S1x256 .f32) (p q : Fin 256) :
    addf (matmul dot_S256x1024_S1024x256_S256x256_1_0_0_1_n_n none (truncf .bf16 P bitsLt_bf16_f32) w (constant (F := Ideal) S256x256 .f32 0x00000000#32))
        (broadcastTo S256x256 b broadcasts_S1x256_S256x256) (ix2 p q)
      = preact P w b p q := by
  rw [addf_apply, matmul_hidden_apply, broadcastTo_1b_ab_apply]
  rfl

/-- The running down-projection after a chunk: what it held plus the chunk's `silu gate · up` times its rows of `U2`. -/
theorem pay4_apply (P : Vec Ideal S256x1024 .f32) (g : Vec Ideal S1024x256 .bf16) (bg : Vec Ideal S1x256 .f32)
    (u : Vec Ideal S1024x256 .bf16) (bu : Vec Ideal S1x256 .f32) (Z : Vec Ideal S256x1024 .f32) (U2 : Vec Ideal S256x1024 .bf16)
    (p : Fin 256) (k : Fin 1024) :
    k0_pay4 (F := Ideal) P g bg u bu Z U2 (ix2 p k)
      = Z (ix2 p k) + ∑ q : Fin 256, (MlpSpec.silu (preact P g bg p q) * preact P u bu p q) * U2 (ix2 q k) := by
  unfold k0_pay4
  simp only [shapeCast_self]
  rw [addf_apply, matmul_down_apply]
  refine congrArg (Z (ix2 p k) + ·) (Finset.sum_congr rfl fun q _ => ?_)
  rw [truncf_apply, mulf_apply, mulf_apply, logistic_apply, preact_eq, preact_eq]
  rfl

/-- The result block: the down-projection times `V2`, plus the bias row. -/
theorem pay1_apply (Z : Vec Ideal S256x1024 .f32) (V2 : Vec Ideal S1024x4096 .bf16) (b2 : Vec Ideal S1x4096 .f32)
    (p : Fin 256) (h : Fin 4096) :
    k0_pay1 (F := Ideal) Z V2 b2 (ix2 p h) = (∑ k : Fin 1024, Z (ix2 p k) * V2 (ix2 k h)) + b2 (ix2 (0 : Fin 1) h) := by
  unfold k0_pay1
  simp only [shapeCast_self]
  rw [addf_apply, matmul_out_apply, broadcastTo_1b_ab_apply]
  rfl

end Cert.KernelIdeal.Pay

end
-- ==== Proof.Steps.lean ====
/-
  One grid point's arithmetic against the specification, over blocks given by what they hold.

  If a block of `x` holds row `row` and the `U1` block holds `U1`, the stored projection block is `proj row`; if the
  projection scratch holds `proj row`, the chunk's blocks hold columns `256·c …` of the gate and up halves of `V1`, `b1`
  and rows `256·c …` of `U2`, the stored accumulator is what it held plus `chunk row c`; and if the accumulator holds
  `down row`, the stored result block is `out row`.
-/
import proofs.«108089_j28140625723484_1_alg».proof.Proof.Payload
import proofs.«108089_j28140625723484_1_alg».proof.Proof.Spec

noncomputable section

namespace Cert.KernelIdeal.Steps

open Idealize.ShloMosaic Idealize.ShloMosaic.ValueIdx Cert.KernelIdeal Cert.KernelIdeal.Gen Cert.KernelIdeal.Pay Cert.MlpSpec

variable (X : Fin 4096 → Fin 4096 → EReal) (U1 : Fin 4096 → Fin 1024 → EReal) (V1 : Fin 1024 → Fin 22016 → EReal)
  (U2 : Fin 11008 → Fin 1024 → EReal) (V2 : Fin 1024 → Fin 4096 → EReal) (b1 : Fin 22016 → EReal) (b2 : Fin 4096 → EReal)

/-- The projection block at row `p` of the tile is `proj` at the tile's row. -/
theorem proj_step (row : Fin 4096) (x0 : Vec Ideal S256x4096 .bf16) (x1 : Vec Ideal S4096x1024 .bf16) (p : Fin 256)
    (hx : ∀ h, x0 (ix2 p h) = X row h) (hU : ∀ h k, x1 (ix2 h k) = U1 h k) (k : Fin 1024) :
    k0_pay2 (F := Ideal) x0 x1 (ix2 p k) = proj X U1 row k := by
  rw [pay2_apply]
  unfold proj
  exact Finset.sum_congr rfl fun h _ => by rw [hx h, hU h k]

/-- A chunk's pre-activation over blocks holding the tile's projection and the chunk's columns is `hidden` there. -/
theorem preact_eq (row : Fin 4096) (P : Vec Ideal S256x1024 .f32) (w : Vec Ideal S1024x256 .bf16) (b : Vec Ideal S1x256 .f32)
    (p q : Fin 256) (f : Fin 22016) (hP : ∀ r, P (ix2 p r) = proj X U1 row r) (hw : ∀ r, w (ix2 r q) = V1 r f)
    (hb : b (ix2 (0 : Fin 1) q) = b1 f) : preact P w b p q = hidden X U1 V1 b1 row f := by
  unfold preact MlpSpec.hidden
  rw [hb]
  exact congrArg (· + b1 f) (Finset.sum_congr rfl fun r _ => by rw [hP r, hw r])

/-- The accumulator after chunk `c`: what it held plus the chunk's share of `down`. -/
theorem acc_step (row : Fin 4096) (c : ℕ) (hc : c < 43) (P : Vec Ideal S256x1024 .f32) (g : Vec Ideal S1024x256 .bf16)
    (bg : Vec Ideal S1x256 .f32) (u : Vec Ideal S1024x256 .bf16) (bu : Vec Ideal S1x256 .f32) (Z : Vec Ideal S256x1024 .f32)
    (U2b : Vec Ideal S256x1024 .bf16) (p : Fin 256) (hP : ∀ r, P (ix2 p r) = proj X U1 row r)
    (hg : ∀ r q, g (ix2 r q) = V1 r (gateCol (chunkCol c hc q))) (hbg : ∀ q, bg (ix2 (0 : Fin 1) q) = b1 (gateCol (chunkCol c hc q)))
    (hu : ∀ r q, u (ix2 r q) = V1 r (upCol (chunkCol c hc q))) (hbu : ∀ q, bu (ix2 (0 : Fin 1) q) = b1 (upCol (chunkCol c hc q)))
    (hU2 : ∀ q k, U2b (ix2 q k) = U2 (chunkCol c hc q) k) (k : Fin 1024) :
    k0_pay4 (F := Ideal) P g bg u bu Z U2b (ix2 p k) = Z (ix2 p k) + chunk X U1 V1 U2 b1 row k c := by
  rw [pay4_apply, chunk_of_lt X U1 V1 U2 b1 row k c hc]
  refine congrArg (Z (ix2 p k) + ·) (Finset.sum_congr rfl fun q _ => ?_)
  rw [preact_eq X U1 V1 b1 row P g bg p q _ hP (fun r => hg r q) (hbg q),
    preact_eq X U1 V1 b1 row P u bu p q _ hP (fun r => hu r q) (hbu q), hU2 q k]
  rfl

/-- The result block at row `p` of the tile is `out` at the tile's row. -/
theorem out_step (row : Fin 4096) (Z : Vec Ideal S256x1024 .f32) (V2b : Vec Ideal S1024x4096 .bf16) (b2b : Vec Ideal S1x4096 .f32)
    (p : Fin 256) (hZ : ∀ k, Z (ix2 p k) = down X U1 V1 U2 b1 row k) (hV2 : ∀ k h, V2b (ix2 k h) = V2 k h)
    (hb2 : ∀ h, b2b (ix2 (0 : Fin 1) h) = b2 h) (h : Fin 4096) :
    k0_pay1 (F := Ideal) Z V2b b2b (ix2 p h) = out X U1 V1 U2 V2 b1 b2 row h := by
  rw [pay1_apply, hb2 h]
  unfold out
  exact congrArg (· + b2 h) (Finset.sum_congr rfl fun k _ => by rw [hZ k, hV2 k h])

end Cert.KernelIdeal.Steps

end
-- ==== Proof.Blocks.lean ====
/-
  What each input window's block holds at a grid point, read off the window's array.

  The grid is 16 row tiles by 43 chunks, the chunk index moving fastest: point `t` is chunk `t % 43` of row tile `t / 43`.
  The block of `x` is rows `256·(t/43) …`; the blocks of the gate and up halves of `V1` and `b1` are columns
  `256·(t%43) …`; the block of `U2` is rows `256·(t%43) …`; `U1`, `V2` and `b2` are read whole at every point.
  A block's coordinate is always block index × block size + the coordinate inside the block.
-/
import proofs.«108089_j28140625723484_1_alg».proof.Proof.Gen.KernelIdeal.Frame
import proofs.«108089_j28140625723484_1_alg».proof.Proof.Spec
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx Cert.KernelIdeal Cert.KernelIdeal.Gen Cert.MlpSpec

variable {F : FTy → Type} [FloatOps F]
variable (m : (ℓ : Loc nD τ sig) → Buf (Elt F) ℓ)

theorem tile_lt (t : Fin cfg0.N) : t.val / 43 < 16 := by
  have : t.val < 688 := lt_of_lt_of_eq t.isLt (show cfg0.N = 688 from N_0)
  omega

theorem chunk_lt (t : Fin cfg0.N) : t.val % 43 < 43 := Nat.mod_lt _ (by norm_num)

/-! ## The index maps over the grid

Decided once over the 688 points: a window cut along an axis has block index `t / 43` (the row tile) or `t % 43` (the
chunk) there, and `0` on every axis it is not cut along. -/

/-- `x`: row tile `t / 43`, all columns. -/
theorem idx_x : ∀ t : Fin cfg0.N, win0_0.index t (0 : Fin 2) = t.val / 43 ∧ win0_0.index t (1 : Fin 2) = 0 :=
  (by decide +kernel : ∀ t : Fin grid0.N, _)
/-- `U1`: whole. -/
theorem idx_U1 : ∀ t : Fin cfg0.N, win0_1.index t (0 : Fin 2) = 0 ∧ win0_1.index t (1 : Fin 2) = 0 :=
  (by decide +kernel : ∀ t : Fin grid0.N, _)
/-- The gate half of `V1`: all rows, column chunk `t % 43`. -/
theorem idx_V1g : ∀ t : Fin cfg0.N, win0_2.index t (0 : Fin 2) = 0 ∧ win0_2.index t (1 : Fin 2) = t.val % 43 :=
  (by decide +kernel : ∀ t : Fin grid0.N, _)
/-- The up half of `V1`: the same. -/
theorem idx_V1u : ∀ t : Fin cfg0.N, win0_3.index t (0 : Fin 2) = 0 ∧ win0_3.index t (1 : Fin 2) = t.val % 43 :=
  (by decide +kernel : ∀ t : Fin grid0.N, _)
/-- The gate half of `b1`: its one row, column chunk `t % 43`. -/
theorem idx_b1g : ∀ t : Fin cfg0.N, win0_4.index t (0 : Fin 2) = 0 ∧ win0_4.index t (1 : Fin 2) = t.val % 43 :=
  (by decide +kernel : ∀ t : Fin grid0.N, _)
/-- The up half of `b1`: the same. -/
theorem idx_b1u : ∀ t : Fin cfg0.N, win0_5.index t (0 : Fin 2) = 0 ∧ win0_5.index t (1 : Fin 2) = t.val % 43 :=
  (by decide +kernel : ∀ t : Fin grid0.N, _)
/-- `U2`: row chunk `t % 43`, all columns. -/
theorem idx_U2 : ∀ t : Fin cfg0.N, win0_6.index t (0 : Fin 2) = t.val % 43 ∧ win0_6.index t (1 : Fin 2) = 0 :=
  (by decide +kernel : ∀ t : Fin grid0.N, _)
/-- `V2`: whole. -/
theorem idx_V2 : ∀ t : Fin cfg0.N, win0_7.index t (0 : Fin 2) = 0 ∧ win0_7.index t (1 : Fin 2) = 0 :=
  (by decide +kernel : ∀ t : Fin grid0.N, _)
/-- `b2`: whole. -/
theorem idx_b2 : ∀ t : Fin cfg0.N, win0_8.index t (0 : Fin 2) = 0 ∧ win0_8.index t (1 : Fin 2) = 0 :=
  (by decide +kernel : ∀ t : Fin grid0.N, _)

/-! ## The blocks

A block's coordinate on an axis is block index × block size + the coordinate inside the block. -/

theorem blk_x (c : Dev nD) (t : Fin cfg0.N) (p : Fin 256) (h : Fin 4096) :
    (iblk m c 0 t : Vec F S256x4096 .bf16) (ix2 p h) = (V m c main_v1 : Vec F S4096x4096 .bf16) (ix2 (tileRow (t.val / 43) (tile_lt t) p) h) := by
  obtain ⟨e0, e1⟩ := idx_x t
  unfold iblk
  rw [View.read_apply]
  show V m c main_v1 (((cfg0.win 0).blk t).view.emb (ix2 p h)) = V m c main_v1 (ix2 (tileRow (t.val / 43) (tile_lt t) p) h)
  refine congrArg (V m c main_v1) (funext fun a => Fin.ext ?_)
  match a with
  | ⟨0, _⟩ => show win0_0.index t (0 : Fin 2) * 256 + 1 * p.val = 256 * (t.val / 43) + p.val; rw [e0]; omega
  | ⟨1, _⟩ => show win0_0.index t (1 : Fin 2) * 4096 + 1 * h.val = h.val; rw [e1]; omega
theorem blk_U1 (c : Dev nD) (t : Fin cfg0.N) (h : Fin 4096) (k : Fin 1024) :
    (iblk m c 1 t : Vec F S4096x1024 .bf16) (ix2 h k) = (V m c main_v2 : Vec F S4096x1024 .bf16) (ix2 h k) := by
  obtain ⟨e0, e1⟩ := idx_U1 t
  unfold iblk
  rw [View.read_apply]
  show V m c main_v2 (((cfg0.win 1).blk t).view.emb (ix2 h k)) = V m c main_v2 (ix2 h k)
  refine congrArg (V m c main_v2) (funext fun a => Fin.ext ?_)
  match a with
  | ⟨0, _⟩ => show win0_1.index t (0 : Fin 2) * 4096 + 1 * h.val = h.val; rw [e0]; omega
  | ⟨1, _⟩ => show win0_1.index t (1 : Fin 2) * 1024 + 1 * k.val = k.val; rw [e1]; omega
theorem blk_V1g (c : Dev nD) (t : Fin cfg0.N) (k : Fin 1024) (q : Fin 256) :
    (iblk m c 2 t : Vec F S1024x256 .bf16) (ix2 k q) = (V m c main_v4 : Vec F S1024x11008 .bf16) (ix2 k (chunkCol (t.val % 43) (chunk_lt t) q)) := by
  obtain ⟨e0, e1⟩ := idx_V1g t
  unfold iblk
  rw [View.read_apply]
  show V m c main_v4 (((cfg0.win 2).blk t).view.emb (ix2 k q)) = V m c main_v4 (ix2 k (chunkCol (t.val % 43) (chunk_lt t) q))
  refine congrArg (V m c main_v4) (funext fun a => Fin.ext ?_)
  match a with
  | ⟨0, _⟩ => show win0_2.index t (0 : Fin 2) * 1024 + 1 * k.val = k.val; rw [e0]; omega
  | ⟨1, _⟩ => show win0_2.index t (1 : Fin 2) * 256 + 1 * q.val = 256 * (t.val % 43) + q.val; rw [e1]; omega
theorem blk_V1u (c : Dev nD) (t : Fin cfg0.N) (k : Fin 1024) (q : Fin 256) :
    (iblk m c 3 t : Vec F S1024x256 .bf16) (ix2 k q) = (V m c main_v6 : Vec F S1024x11008 .bf16) (ix2 k (chunkCol (t.val % 43) (chunk_lt t) q)) := by
  obtain ⟨e0, e1⟩ := idx_V1u t
  unfold iblk
  rw [View.read_apply]
  show V m c main_v6 (((cfg0.win 3).blk t).view.emb (ix2 k q)) = V m c main_v6 (ix2 k (chunkCol (t.val % 43) (chunk_lt t) q))
  refine congrArg (V m c main_v6) (funext fun a => Fin.ext ?_)
  match a with
  | ⟨0, _⟩ => show win0_3.index t (0 : Fin 2) * 1024 + 1 * k.val = k.val; rw [e0]; omega
  | ⟨1, _⟩ => show win0_3.index t (1 : Fin 2) * 256 + 1 * q.val = 256 * (t.val % 43) + q.val; rw [e1]; omega
theorem blk_b1g (c : Dev nD) (t : Fin cfg0.N) (q : Fin 256) :
    (iblk m c 4 t : Vec F S1x256 .f32) (ix2 (0 : Fin 1) q) = (V m c main_v8 : Vec F S1x11008 .f32) (ix2 (0 : Fin 1) (chunkCol (t.val % 43) (chunk_lt t) q)) := by
  obtain ⟨e0, e1⟩ := idx_b1g t
  unfold iblk
  rw [View.read_apply]
  show V m c main_v8 (((cfg0.win 4).blk t).view.emb (ix2 (0 : Fin 1) q)) = V m c main_v8 (ix2 (0 : Fin 1) (chunkCol (t.val % 43) (chunk_lt t) q))
  refine congrArg (V m c main_v8) (funext fun a => Fin.ext ?_)
  match a with
  | ⟨0, _⟩ => show win0_4.index t (0 : Fin 2) * 1 + 1 * 0 = 0; rw [e0]
  | ⟨1, _⟩ => show win0_4.index t (1 : Fin 2) * 256 + 1 * q.val = 256 * (t.val % 43) + q.val; rw [e1]; omega
theorem blk_b1u (c : Dev nD) (t : Fin cfg0.N) (q : Fin 256) :
    (iblk m c 5 t : Vec F S1x256 .f32) (ix2 (0 : Fin 1) q) = (V m c main_v10 : Vec F S1x11008 .f32) (ix2 (0 : Fin 1) (chunkCol (t.val % 43) (chunk_lt t) q)) := by
  obtain ⟨e0, e1⟩ := idx_b1u t
  unfold iblk
  rw [View.read_apply]
  show V m c main_v10 (((cfg0.win 5).blk t).view.emb (ix2 (0 : Fin 1) q)) = V m c main_v10 (ix2 (0 : Fin 1) (chunkCol (t.val % 43) (chunk_lt t) q))
  refine congrArg (V m c main_v10) (funext fun a => Fin.ext ?_)
  match a with
  | ⟨0, _⟩ => show win0_5.index t (0 : Fin 2) * 1 + 1 * 0 = 0; rw [e0]
  | ⟨1, _⟩ => show win0_5.index t (1 : Fin 2) * 256 + 1 * q.val = 256 * (t.val % 43) + q.val; rw [e1]; omega
theorem blk_U2 (c : Dev nD) (t : Fin cfg0.N) (q : Fin 256) (k : Fin 1024) :
    (iblk m c 6 t : Vec F S256x1024 .bf16) (ix2 q k) = (V m c main_v11 : Vec F S11008x1024 .bf16) (ix2 (chunkCol (t.val % 43) (chunk_lt t) q) k) := by
  obtain ⟨e0, e1⟩ := idx_U2 t
  unfold iblk
  rw [View.read_apply]
  show V m c main_v11 (((cfg0.win 6).blk t).view.emb (ix2 q k)) = V m c main_v11 (ix2 (chunkCol (t.val % 43) (chunk_lt t) q) k)
  refine congrArg (V m c main_v11) (funext fun a => Fin.ext ?_)
  match a with
  | ⟨0, _⟩ => show win0_6.index t (0 : Fin 2) * 256 + 1 * q.val = 256 * (t.val % 43) + q.val; rw [e0]; omega
  | ⟨1, _⟩ => show win0_6.index t (1 : Fin 2) * 1024 + 1 * k.val = k.val; rw [e1]; omega
theorem blk_V2 (c : Dev nD) (t : Fin cfg0.N) (k : Fin 1024) (h : Fin 4096) :
    (iblk m c 7 t : Vec F S1024x4096 .bf16) (ix2 k h) = (V m c main_v12 : Vec F S1024x4096 .bf16) (ix2 k h) := by
  obtain ⟨e0, e1⟩ := idx_V2 t
  unfold iblk
  rw [View.read_apply]
  show V m c main_v12 (((cfg0.win 7).blk t).view.emb (ix2 k h)) = V m c main_v12 (ix2 k h)
  refine congrArg (V m c main_v12) (funext fun a => Fin.ext ?_)
  match a with
  | ⟨0, _⟩ => show win0_7.index t (0 : Fin 2) * 1024 + 1 * k.val = k.val; rw [e0]; omega
  | ⟨1, _⟩ => show win0_7.index t (1 : Fin 2) * 4096 + 1 * h.val = h.val; rw [e1]; omega
theorem blk_b2 (c : Dev nD) (t : Fin cfg0.N) (h : Fin 4096) :
    (iblk m c 8 t : Vec F S1x4096 .f32) (ix2 (0 : Fin 1) h) = (V m c main_v13 : Vec F S1x4096 .f32) (ix2 (0 : Fin 1) h) := by
  obtain ⟨e0, e1⟩ := idx_b2 t
  unfold iblk
  rw [View.read_apply]
  show V m c main_v13 (((cfg0.win 8).blk t).view.emb (ix2 (0 : Fin 1) h)) = V m c main_v13 (ix2 (0 : Fin 1) h)
  refine congrArg (V m c main_v13) (funext fun a => Fin.ext ?_)
  match a with
  | ⟨0, _⟩ => show win0_8.index t (0 : Fin 2) * 1 + 1 * 0 = 0; rw [e0]
  | ⟨1, _⟩ => show win0_8.index t (1 : Fin 2) * 4096 + 1 * h.val = h.val; rw [e1]; omega

end Cert.KernelIdeal.Blocks

end
-- ==== Proof.HostIn.lean ====
/-
  What the region finds in its nine input arrays, as functions of the program's seven arguments.

  Before the region the program flattens `x` to [4096, 4096], cuts `V1` and `b1` into their gate and up halves (columns
  `j` and `11008 + j`), turns the bias vectors into rows [1, n], and changes float formats (the identity over the
  extended reals).
-/
import proofs.«108089_j28140625723484_1_alg».proof.Proof.Gen.KernelIdeal.Frame
import proofs.«108089_j28140625723484_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostIn

open Idealize.ShloMosaic Idealize.ShloMosaic.TcCoe Idealize.SL.Sem Idealize.ShloMosaic.ValueIdx Cert.KernelIdeal Cert.KernelIdeal.Gen Cert.MlpSpec

variable (m : (ℓ : Loc nD τ sig) → Buf (Elt Ideal) ℓ)

/-- Window 0's array: `x` flattened. -/
theorem arr_x (c : Dev nD) (r h : Fin 4096) :
    (V m c main_v1 : Vec Ideal S4096x4096 .bf16) (ix2 r h) = flatX (m ((c : Thread nD τ).loc main_arg0)) r h := by
  have e : (V m c main_v1 : S4096x4096.Idx → EReal)
      = shapeCast S4096x4096 (m ((c : Thread nD τ).loc main_arg0) : S2x2048x4096.Idx → EReal) shapeCasts_S2x2048x4096_S4096x4096 := by
    show StableHlo.after hostOps0 (fun b => m (c, b)) (Proc.devRef .tc main_v1) = _
    after_results
    rfl
  show (V m c main_v1 : S4096x4096.Idx → EReal) (ix2 r h) = _
  rw [e]
  unfold flatX
  refine shapeCast_apply (s := S2x2048x4096) (t := S4096x4096) _ _ (ix2 r h) _ ?_
  rw [Shape.rowMajor_val_three, Shape.rowMajor_val_two]
  show (r.val / 2048 * 2048 + r.val % 2048) * 4096 + h.val = r.val * 4096 + h.val
  omega
/-- Window 1's: `U1`. -/
theorem arr_U1 (c : Dev nD) (h : Fin 4096) (k : Fin 1024) :
    (V m c main_v2 : Vec Ideal S4096x1024 .bf16) (ix2 h k) = mat (m ((c : Thread nD τ).loc main_arg1)) h k := by
  have e : (V m c main_v2 : S4096x1024.Idx → EReal) = (m ((c : Thread nD τ).loc main_arg1) : S4096x1024.Idx → EReal) := by
    show StableHlo.after hostOps0 (fun b => m (c, b)) (Proc.devRef .tc main_v2) = _
    after_results
    rfl
  show (V m c main_v2 : S4096x1024.Idx → EReal) (ix2 h k) = _
  rw [e]
  rfl
/-- Window 2's: the gate half of `V1`. -/
theorem arr_V1g (c : Dev nD) (k : Fin 1024) (j : Fin 11008) :
    (V m c main_v4 : Vec Ideal S1024x11008 .bf16) (ix2 k j) = mat (m ((c : Thread nD τ).loc main_arg2)) k (gateCol j) := by
  have e : (V m c main_v4 : S1024x11008.Idx → EReal)
      = extractStridedSlice S1024x11008 ![0, 0] (m ((c : Thread nD τ).loc main_arg2) : S1024x22016.Idx → EReal) slices_S1024x22016_S1024x11008_0_0 := by
    show StableHlo.after hostOps0 (fun b => m (c, b)) (Proc.devRef .tc main_v4) = _
    after_results
    rfl
  show (V m c main_v4 : S1024x11008.Idx → EReal) (ix2 k j) = _
  rw [e]
  unfold mat
  refine extractStridedSlice_apply _ _ _ (ix2 k j) (ix2 k (gateCol j)) fun a => ?_
  match a with
  | ⟨0, _⟩ => show k.val = 0 + k.val; omega
  | ⟨1, _⟩ => show j.val = 0 + j.val; omega
/-- Window 3's: the up half of `V1`. -/
theorem arr_V1u (c : Dev nD) (k : Fin 1024) (j : Fin 11008) :
    (V m c main_v6 : Vec Ideal S1024x11008 .bf16) (ix2 k j) = mat (m ((c : Thread nD τ).loc main_arg2)) k (upCol j) := by
  have e : (V m c main_v6 : S1024x11008.Idx → EReal)
      = extractStridedSlice S1024x11008 ![0, 11008] (m ((c : Thread nD τ).loc main_arg2) : S1024x22016.Idx → EReal) slices_S1024x22016_S1024x11008_0_11008 := by
    show StableHlo.after hostOps0 (fun b => m (c, b)) (Proc.devRef .tc main_v6) = _
    after_results
    rfl
  show (V m c main_v6 : S1024x11008.Idx → EReal) (ix2 k j) = _
  rw [e]
  unfold mat
  refine extractStridedSlice_apply _ _ _ (ix2 k j) (ix2 k (upCol j)) fun a => ?_
  match a with
  | ⟨0, _⟩ => show k.val = 0 + k.val; omega
  | ⟨1, _⟩ => show 11008 + j.val = 11008 + j.val; rfl
/-- Window 4's: the gate half of `b1`, as a row. -/
theorem arr_b1g (c : Dev nD) (j : Fin 11008) :
    (V m c main_v8 : Vec Ideal S1x11008 .f32) (ix2 (0 : Fin 1) j) = vec (m ((c : Thread nD τ).loc main_arg5)) (gateCol j) := by
  have e : (V m c main_v8 : S1x11008.Idx → EReal)
      = shapeCast S1x11008 (extractStridedSlice S11008 ![0] (m ((c : Thread nD τ).loc main_arg5) : S22016.Idx → EReal) slices_S22016_S11008_0) shapeCasts_S11008_S1x11008 := by
    show StableHlo.after hostOps0 (fun b => m (c, b)) (Proc.devRef .tc main_v8) = _
    after_results
    rfl
  show (V m c main_v8 : S1x11008.Idx → EReal) (ix2 (0 : Fin 1) j) = _
  rw [e]
  unfold vec
  refine (shapeCast_apply _ _ (ix2 (0 : Fin 1) j) (ix1 j) ?_).trans ?_
  · rw [Shape.rowMajor_val_one, Shape.rowMajor_val_two]
    show j.val = 0 * 11008 + j.val
    omega
  · refine extractStridedSlice_apply _ _ _ (ix1 j) (ix1 (gateCol j)) fun a => ?_
    match a with
    | ⟨0, _⟩ => show j.val = 0 + j.val; omega
/-- Window 5's: the up half of `b1`, as a row. -/
theorem arr_b1u (c : Dev nD) (j : Fin 11008) :
    (V m c main_v10 : Vec Ideal S1x11008 .f32) (ix2 (0 : Fin 1) j) = vec (m ((c : Thread nD τ).loc main_arg5)) (upCol j) := by
  have e : (V m c main_v10 : S1x11008.Idx → EReal)
      = shapeCast S1x11008 (extractStridedSlice S11008 ![11008] (m ((c : Thread nD τ).loc main_arg5) : S22016.Idx → EReal) slices_S22016_S11008_11008) shapeCasts_S11008_S1x11008 := by
    show StableHlo.after hostOps0 (fun b => m (c, b)) (Proc.devRef .tc main_v10) = _
    after_results
    rfl
  show (V m c main_v10 : S1x11008.Idx → EReal) (ix2 (0 : Fin 1) j) = _
  rw [e]
  unfold vec
  refine (shapeCast_apply _ _ (ix2 (0 : Fin 1) j) (ix1 j) ?_).trans ?_
  · rw [Shape.rowMajor_val_one, Shape.rowMajor_val_two]
    show j.val = 0 * 11008 + j.val
    omega
  · refine extractStridedSlice_apply _ _ _ (ix1 j) (ix1 (upCol j)) fun a => ?_
    match a with
    | ⟨0, _⟩ => show 11008 + j.val = 11008 + j.val; rfl
/-- Window 6's: `U2`. -/
theorem arr_U2 (c : Dev nD) (j : Fin 11008) (k : Fin 1024) :
    (V m c main_v11 : Vec Ideal S11008x1024 .bf16) (ix2 j k) = mat (m ((c : Thread nD τ).loc main_arg3)) j k := by
  have e : (V m c main_v11 : S11008x1024.Idx → EReal) = (m ((c : Thread nD τ).loc main_arg3) : S11008x1024.Idx → EReal) := by
    show StableHlo.after hostOps0 (fun b => m (c, b)) (Proc.devRef .tc main_v11) = _
    after_results
    rfl
  show (V m c main_v11 : S11008x1024.Idx → EReal) (ix2 j k) = _
  rw [e]
  rfl
/-- Window 7's: `V2`. -/
theorem arr_V2 (c : Dev nD) (k : Fin 1024) (h : Fin 4096) :
    (V m c main_v12 : Vec Ideal S1024x4096 .bf16) (ix2 k h) = mat (m ((c : Thread nD τ).loc main_arg4)) k h := by
  have e : (V m c main_v12 : S1024x4096.Idx → EReal) = (m ((c : Thread nD τ).loc main_arg4) : S1024x4096.Idx → EReal) := by
    show StableHlo.after hostOps0 (fun b => m (c, b)) (Proc.devRef .tc main_v12) = _
    after_results
    rfl
  show (V m c main_v12 : S1024x4096.Idx → EReal) (ix2 k h) = _
  rw [e]
  rfl
/-- Window 8's: `b2` as a row. -/
theorem arr_b2 (c : Dev nD) (h : Fin 4096) :
    (V m c main_v13 : Vec Ideal S1x4096 .f32) (ix2 (0 : Fin 1) h) = vec (m ((c : Thread nD τ).loc main_arg6)) h := by
  have e : (V m c main_v13 : S1x4096.Idx → EReal)
      = shapeCast S1x4096 (m ((c : Thread nD τ).loc main_arg6) : S4096.Idx → EReal) shapeCasts_S4096_S1x4096 := by
    show StableHlo.after hostOps0 (fun b => m (c, b)) (Proc.devRef .tc main_v13) = _
    after_results
    rfl
  show (V m c main_v13 : S1x4096.Idx → EReal) (ix2 (0 : Fin 1) h) = _
  rw [e]
  unfold vec
  refine shapeCast_apply _ _ (ix2 (0 : Fin 1) h) (ix1 h) ?_
  rw [Shape.rowMajor_val_one, Shape.rowMajor_val_two]
  show h.val = 0 * 4096 + h.val
  omega

end Cert.KernelIdeal.HostIn

end
-- ==== Proof.Invariant.lean ====
/-
  The carried scratch after every grid point, by induction on the point.

  Point `n` is chunk `n % 43` of row tile `n / 43`. After it the projection scratch holds `proj` at the tile's 256 rows and
  the accumulator holds `down` summed over the chunks `0 … n % 43` of those rows: a point that opens a tile stores the
  projection and `0 +` the first share; a later point finds both as the point before left them (the same tile, one chunk
  less) and adds its share. After a tile's last chunk the accumulator is all of `down` (the 43 chunks are all 11008
  columns), so the result block stored there is `out` at the tile's rows.
-/
import proofs.«108089_j28140625723484_1_alg».proof.Proof.PointValues
import proofs.«108089_j28140625723484_1_alg».proof.Proof.Steps
import proofs.«108089_j28140625723484_1_alg».proof.Proof.Blocks
import proofs.«108089_j28140625723484_1_alg».proof.Proof.HostIn

noncomputable section

namespace Cert.KernelIdeal.Inv

open Idealize.ShloMosaic Idealize.ShloMosaic.TcCoe Idealize.SL.Sem Idealize.ShloMosaic.ValueIdx
open Cert.KernelIdeal Cert.KernelIdeal.Gen Cert.MlpSpec Cert.KernelIdeal.PointValues Cert.KernelIdeal.Steps Cert.KernelIdeal.Blocks Cert.KernelIdeal.HostIn
open Cert.KernelIdeal.Pay (pay3_apply)

variable (m : (ℓ : Loc nD τ sig) → Buf (Elt Ideal) ℓ)

/-- The specification's seven inputs, read off the argument arrays. -/
abbrev sX (c : Dev nD) : Fin 4096 → Fin 4096 → EReal := flatX (m ((c : Thread nD τ).loc main_arg0))
abbrev sU1 (c : Dev nD) : Fin 4096 → Fin 1024 → EReal := mat (m ((c : Thread nD τ).loc main_arg1))
abbrev sV1 (c : Dev nD) : Fin 1024 → Fin 22016 → EReal := mat (m ((c : Thread nD τ).loc main_arg2))
abbrev sU2 (c : Dev nD) : Fin 11008 → Fin 1024 → EReal := mat (m ((c : Thread nD τ).loc main_arg3))
abbrev sV2 (c : Dev nD) : Fin 1024 → Fin 4096 → EReal := mat (m ((c : Thread nD τ).loc main_arg4))
abbrev sb1 (c : Dev nD) : Fin 22016 → EReal := vec (m ((c : Thread nD τ).loc main_arg5))
abbrev sb2 (c : Dev nD) : Fin 4096 → EReal := vec (m ((c : Thread nD τ).loc main_arg6))

/-! ## A point's blocks, as entries of the arguments -/

theorem x_at (c : Dev nD) (t : Fin cfg0.N) (p : Fin 256) (h : Fin 4096) :
    xBlk m c t (ix2 p h) = sX m c (tileRow (t.val / 43) (tile_lt t) p) h := (blk_x m c t p h).trans (arr_x m c _ h)
theorem u1_at (c : Dev nD) (t : Fin cfg0.N) (h : Fin 4096) (k : Fin 1024) :
    u1Blk m c t (ix2 h k) = sU1 m c h k := (blk_U1 m c t h k).trans (arr_U1 m c h k)
theorem g_at (c : Dev nD) (t : Fin cfg0.N) (r : Fin 1024) (q : Fin 256) :
    gBlk m c t (ix2 r q) = sV1 m c r (gateCol (chunkCol (t.val % 43) (chunk_lt t) q)) := (blk_V1g m c t r q).trans (arr_V1g m c r _)
theorem u_at (c : Dev nD) (t : Fin cfg0.N) (r : Fin 1024) (q : Fin 256) :
    uBlk m c t (ix2 r q) = sV1 m c r (upCol (chunkCol (t.val % 43) (chunk_lt t) q)) := (blk_V1u m c t r q).trans (arr_V1u m c r _)
theorem bg_at (c : Dev nD) (t : Fin cfg0.N) (q : Fin 256) :
    bgBlk m c t (ix2 (0 : Fin 1) q) = sb1 m c (gateCol (chunkCol (t.val % 43) (chunk_lt t) q)) := (blk_b1g m c t q).trans (arr_b1g m c _)
theorem bu_at (c : Dev nD) (t : Fin cfg0.N) (q : Fin 256) :
    buBlk m c t (ix2 (0 : Fin 1) q) = sb1 m c (upCol (chunkCol (t.val % 43) (chunk_lt t) q)) := (blk_b1u m c t q).trans (arr_b1u m c _)
theorem u2_at (c : Dev nD) (t : Fin cfg0.N) (q : Fin 256) (k : Fin 1024) :
    u2Blk m c t (ix2 q k) = sU2 m c (chunkCol (t.val % 43) (chunk_lt t) q) k := (blk_U2 m c t q k).trans (arr_U2 m c _ k)
theorem v2_at (c : Dev nD) (t : Fin cfg0.N) (k : Fin 1024) (h : Fin 4096) :
    v2Blk m c t (ix2 k h) = sV2 m c k h := (blk_V2 m c t k h).trans (arr_V2 m c k h)
theorem b2_at (c : Dev nD) (t : Fin cfg0.N) (h : Fin 4096) :
    b2Blk m c t (ix2 (0 : Fin 1) h) = sb2 m c h := (blk_b2 m c t h).trans (arr_b2 m c h)

theorem tileRow_eq {a b : ℕ} (h : a = b) (ha : a < 16) (hb : b < 16) (p : Fin 256) : tileRow a ha p = tileRow b hb p := by
  subst h; rfl

/-! ## The invariant -/

/-- After point `n`: the projection scratch is `proj` at the tile's rows, the accumulator `down` over chunks `0 … n % 43`. -/
def Holds (c : Dev nD) (n : ℕ) (hn : n < cfg0.N) : Prop :=
  (∀ (p : Fin 256) (k : Fin 1024), (outsAt0 m c n hn).2.1 (ix2 p k)
      = proj (sX m c) (sU1 m c) (tileRow (n / 43) (tile_lt ⟨n, hn⟩) p) k)
  ∧ ∀ (p : Fin 256) (k : Fin 1024), (outsAt0 m c n hn).2.2 (ix2 p k)
      = downUpTo (sX m c) (sU1 m c) (sV1 m c) (sU2 m c) (sb1 m c) (tileRow (n / 43) (tile_lt ⟨n, hn⟩) p) k (n % 43 + 1)

/-- A point that opens a row tile. -/
theorem holds_open (c : Dev nD) (t : Fin cfg0.N) (h0 : t.val % 43 = 0) (h1 : ¬t.val % 43 = 42) : Holds m c t.val t.isLt := by
  have hP : ∀ (p : Fin 256) (k : Fin 1024), k0_pay2 (F := Ideal) (xBlk m c t) (u1Blk m c t) (ix2 p k)
      = proj (sX m c) (sU1 m c) (tileRow (t.val / 43) (tile_lt t) p) k := fun p k =>
    proj_step (sX m c) (sU1 m c) (tileRow (t.val / 43) (tile_lt t) p) (xBlk m c t) (u1Blk m c t) p (fun h => x_at m c t p h)
      (fun h k => u1_at m c t h k) k
  refine ⟨fun p k => ?_, fun p k => ?_⟩
  · rw [open_proj m c t h0 h1]; exact hP p k
  · rw [open_acc m c t h0 h1]
    refine (acc_step (sX m c) (sU1 m c) (sV1 m c) (sU2 m c) (sb1 m c) (tileRow (t.val / 43) (tile_lt t) p) (t.val % 43) (chunk_lt t)
      (k0_pay2 (xBlk m c t) (u1Blk m c t)) (gBlk m c t) (bgBlk m c t) (uBlk m c t) (buBlk m c t) (k0_pay3 (F := Ideal)) (u2Blk m c t) p
      (fun r => hP p r) (g_at m c t) (bg_at m c t) (u_at m c t) (bu_at m c t) (u2_at m c t) k).trans ?_
    rw [pay3_apply, downUpTo_succ, h0]
    unfold downUpTo
    rw [Finset.sum_range_zero]

/-- A later point of a tile, from the point before. -/
theorem holds_next (c : Dev nD) (t : Fin cfg0.N) (h0 : ¬t.val % 43 = 0)
    (hproj : (outsAt0 m c t.val t.isLt).2.1 = prevProj m c t)
    (hacc : (outsAt0 m c t.val t.isLt).2.2 = upd m c t (prevProj m c t) (prevAcc m c t))
    (ih : Holds m c (t.val - 1) (Nat.lt_of_le_of_lt (Nat.sub_le _ _) t.isLt)) : Holds m c t.val t.isLt := by
  have hdiv : (t.val - 1) / 43 = t.val / 43 := by omega
  have hmod : (t.val - 1) % 43 + 1 = t.val % 43 := by omega
  have hrow : ∀ p : Fin 256, tileRow ((t.val - 1) / 43) (tile_lt ⟨t.val - 1, Nat.lt_of_le_of_lt (Nat.sub_le _ _) t.isLt⟩) p
      = tileRow (t.val / 43) (tile_lt t) p := fun p => tileRow_eq hdiv _ _ p
  have hPprev : ∀ (p : Fin 256) (r : Fin 1024), prevProj m c t (ix2 p r)
      = proj (sX m c) (sU1 m c) (tileRow (t.val / 43) (tile_lt t) p) r := fun p r => by
    refine (ih.1 p r).trans ?_
    rw [hrow p]
  refine ⟨fun p k => ?_, fun p k => ?_⟩
  · rw [hproj]; exact hPprev p k
  · rw [hacc]
    refine (acc_step (sX m c) (sU1 m c) (sV1 m c) (sU2 m c) (sb1 m c) (tileRow (t.val / 43) (tile_lt t) p) (t.val % 43) (chunk_lt t)
      (prevProj m c t) (gBlk m c t) (bgBlk m c t) (uBlk m c t) (buBlk m c t) (prevAcc m c t) (u2Blk m c t) p
      (hPprev p) (g_at m c t) (bg_at m c t) (u_at m c t) (bu_at m c t) (u2_at m c t) k).trans ?_
    rw [downUpTo_succ]
    refine congrArg (· + chunk (sX m c) (sU1 m c) (sV1 m c) (sU2 m c) (sb1 m c) (tileRow (t.val / 43) (tile_lt t) p) k (t.val % 43)) ?_
    refine (ih.2 p k).trans ?_
    rw [hrow p, hmod]

/-- After every point. -/
theorem holds (c : Dev nD) : ∀ (n : ℕ) (hn : n < cfg0.N), Holds m c n hn := by
  intro n
  induction n with
  | zero => intro hn; exact holds_open m c ⟨0, hn⟩ (Nat.zero_mod _) (show ¬(0 % 43 = 42) by decide)
  | succ n ih =>
    intro hn
    have ihn := ih (Nat.lt_of_succ_lt hn)
    by_cases h0 : (n + 1) % 43 = 0
    · exact holds_open m c ⟨n + 1, hn⟩ h0 (show ¬((n + 1) % 43 = 42) by omega)
    · by_cases h1 : (n + 1) % 43 = 42
      · exact holds_next m c ⟨n + 1, hn⟩ h0 (last_proj m c ⟨n + 1, hn⟩ h0 h1) (last_acc m c ⟨n + 1, hn⟩ h0 h1) ihn
      · exact holds_next m c ⟨n + 1, hn⟩ h0 (mid_proj m c ⟨n + 1, hn⟩ h0 h1) (mid_acc m c ⟨n + 1, hn⟩ h0 h1) ihn

/-- The result block a tile's last point stores is `out` at the tile's rows. -/
theorem out_at_last (c : Dev nD) (t : Fin cfg0.N) (h1 : t.val % 43 = 42) (p : Fin 256) (h : Fin 4096) :
    (outsAt0 m c t.val t.isLt).1 (ix2 p h)
      = out (sX m c) (sU1 m c) (sV1 m c) (sU2 m c) (sV2 m c) (sb1 m c) (sb2 m c) (tileRow (t.val / 43) (tile_lt t) p) h := by
  have h0 : ¬t.val % 43 = 0 := by omega
  rw [PointValues.last_out m c t h0 h1]
  refine out_step (sX m c) (sU1 m c) (sV1 m c) (sU2 m c) (sV2 m c) (sb1 m c) (sb2 m c) (tileRow (t.val / 43) (tile_lt t) p)
    (upd m c t (prevProj m c t) (prevAcc m c t)) (v2Blk m c t) (b2Blk m c t) p (fun k => ?_) (v2_at m c t) (b2_at m c t) h
  have hk := (holds m c t.val t.isLt).2 p k
  rw [PointValues.last_acc m c t h0 h1, h1] at hk
  exact hk.trans (downUpTo_all (sX m c) (sU1 m c) (sV1 m c) (sU2 m c) (sb1 m c) _ k)

end Cert.KernelIdeal.Inv

end
-- ==== Proof.Result.lean ====
/-
  The kernel's result array after the run.

  Only a row tile's last point (chunk 42) writes the output window back, and what it writes is `out` at the tile's 256
  rows; the sixteen tiles cover all 4096 rows (row `r` is in tile `r / 256`), so the [4096, 4096] array the region leaves
  is `out` everywhere. The program then views it as [2, 2048, 4096]: entry (b, s, h) is row `2048·b + s`, which is the
  specification's `result`.
-/
import proofs.«108089_j28140625723484_1_alg».proof.Proof.Invariant
import Idealize.ShloMosaic.Lib.Pipeline.Value
import Idealize.ShloMosaic.Lib.ValueLayout
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.MlpSpec Cert.KernelIdeal.Inv Cert.KernelIdeal.Blocks

variable (m : (ℓ : Loc nD τ sig) → Buf (Elt Ideal) ℓ) (ρ : Dev nD → PrngReg)

/-- `out` of the arguments as a [4096, 4096] array. -/
abbrev outArr (c : Dev nD) : S4096x4096.Idx → EReal := fun i =>
  out (sX m c) (sU1 m c) (sV1 m c) (sU2 m c) (sV2 m c) (sb1 m c) (sb2 m c) (i 0) (i 1)

/-- The output window's block index at point `t`: row tile `t / 43`, the one column block. -/
theorem out_index : ∀ t : Fin cfg0.N, win0_9.index t (0 : Fin 2) = t.val / 43 ∧ win0_9.index t (1 : Fin 2) = 0 :=
  (by decide +kernel : ∀ t : Fin grid0.N, win0_9.index t (0 : Fin 2) = t.val / 43 ∧ win0_9.index t (1 : Fin 2) = 0)

/-- What a tile's last point leaves in the output block, at any index of the block. -/
theorem last_block (c : Dev nD) (t : Fin cfg0.N) (h42 : t.val % 43 = 42) (j : S256x4096.Idx) :
    (outsAt0 m c t.val t.isLt).1 j
      = out (sX m c) (sU1 m c) (sV1 m c) (sU2 m c) (sV2 m c) (sb1 m c) (sb2 m c) (tileRow (t.val / 43) (tile_lt t) (j 0)) (j 1) :=
  (congrArg (outsAt0 m c t.val t.isLt).1 (eq_ix2 j)).trans (out_at_last m c t h42 (j 0) (j 1))

/-- What a writing point writes back is its block of `outArr`. -/
theorem flushed_eq (c : Dev nD) (t : Fin cfg0.N) (hf : (cfg0.win 9).flush t = true) :
    (dats m 0 c).flushed 9 t = ((cfg0.win 9).blk t).view.read (Elt Ideal) (outArr m c) := by
  have h42 : t.val % 43 = 42 := (flush0_9 t).mp hf
  obtain ⟨e0, e1⟩ := out_index t
  show (cfg0.win 9).cut (grid0.coords t) ((dats m 0 c).after 9 t) = _
  rw [after0_9]
  funext j
  show (outsAt0 m c t.val t.isLt).1 j = outArr m c (((cfg0.win 9).blk t).view.emb j)
  rw [last_block m c t h42 j]
  show out _ _ _ _ _ _ _ _ _ = out _ _ _ _ _ _ _ ((((cfg0.win 9).blk t).view.emb j) 0) ((((cfg0.win 9).blk t).view.emb j) 1)
  congr 1
  · apply Fin.ext
    show 256 * (t.val / 43) + (j 0).val = win0_9.index t (0 : Fin 2) * 256 + 1 * (j 0).val
    rw [e0]; omega
  · apply Fin.ext
    show (j 1).val = win0_9.index t (1 : Fin 2) * 4096 + 1 * (j 1).val
    rw [e1]; omega

/-- An index of the array is in point `t`'s block iff each coordinate is in the block's range on its axis. -/
theorem mem_out_blk (t : Fin cfg0.N) (i : S4096x4096.Idx) :
    i ∈ ((cfg0.win 9).blk t).view.set ↔ ∀ a : Fin 2, win0_9.index t a * S256x4096.size a ≤ (i a).val
      ∧ (i a).val < win0_9.index t a * S256x4096.size a + S256x4096.size a := by
  show i ∈ ((View.whole main_v14).slice (win0_9.rect t)).set ↔ _
  rw [View.set_slice_whole, Rect.mem_set_unit]
  exact Iff.rfl

/-- Row `r` is written back by the last point of tile `r / 256`. -/
theorem covered (i : S4096x4096.Idx) :
    ∃ t : Fin cfg0.N, (cfg0.win 9).flush t = true ∧ i ∈ ((cfg0.win 9).blk t).view.set := by
  have hi0 : (i 0).val < 4096 := (i 0).isLt
  have hi1 : (i 1).val < 4096 := (i 1).isLt
  have hN : cfg0.N = 688 := N_0
  have ht : 43 * ((i 0).val / 256) + 42 < cfg0.N := by omega
  obtain ⟨e0, e1⟩ := out_index ⟨43 * ((i 0).val / 256) + 42, ht⟩
  refine ⟨⟨43 * ((i 0).val / 256) + 42, ht⟩, (flush0_9 _).mpr (by show (43 * ((i 0).val / 256) + 42) % 43 = 42; omega), ?_⟩
  rw [mem_out_blk]
  intro a
  match a with
  | ⟨0, _⟩ =>
    show win0_9.index ⟨43 * ((i 0).val / 256) + 42, ht⟩ (0 : Fin 2) * 256 ≤ (i 0).val
      ∧ (i 0).val < win0_9.index ⟨43 * ((i 0).val / 256) + 42, ht⟩ (0 : Fin 2) * 256 + 256
    rw [e0]
    show (43 * ((i 0).val / 256) + 42) / 43 * 256 ≤ (i 0).val ∧ (i 0).val < (43 * ((i 0).val / 256) + 42) / 43 * 256 + 256
    omega
  | ⟨1, _⟩ =>
    show win0_9.index ⟨43 * ((i 0).val / 256) + 42, ht⟩ (1 : Fin 2) * 4096 ≤ (i 1).val
      ∧ (i 1).val < win0_9.index ⟨43 * ((i 0).val / 256) + 42, ht⟩ (1 : Fin 2) * 4096 + 4096
    rw [e1]; omega

/-- The array the region leaves is `out` of the arguments. -/
theorem final (c : Dev nD) : (dats m 0 c).arrAt 9 cfg0.N = outArr m c :=
  (dats m 0 c).arrAt_eq_of_cover 9 (outArr m c) (flushed_eq m c) covered

/-- The program's result: that array viewed as [2, 2048, 4096]. -/
theorem tail_eq (c : Dev nD) :
    Pipeline.afterTail₀ cfgs (dats m) 0 (V0 m) [hostOps1] c main_v15 = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v15) = _
  after_results
  rw [(Pipeline.withArrays_arr spec0 launch0.win.arr_inj c _ _ 9).trans (final m c)]
  funext i
  obtain ⟨b, s, h, rfl⟩ : ∃ (b : Fin 2) (s : Fin 2048) (h : Fin 4096), i = ix3 b s h := ⟨i 0, i 1, i 2, eq_ix3 i⟩
  refine (shapeCast_apply (s := S4096x4096) (t := S2x2048x4096) _ _ (ix3 b s h) (ix2 (flatRow b s) h) ?_).trans ?_
  · rw [Shape.rowMajor_val_two, Shape.rowMajor_val_three]
    show (2048 * b.val + s.val) * 4096 + h.val = (b.val * 2048 + s.val) * 4096 + h.val
    omega
  · rfl

/-- THE RUN, READ: the result array at the specification's `result` of the arguments, the arguments unchanged. -/
theorem run : θ_run defs (onTc (τ := τ) (main (F := Ideal))) ⟨m, fun _ => 0, ρ⟩ fun r => ∀ c : Dev nD,
      r.2.mem ((c : Thread nD τ).loc main_v15) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).2 main_v15 (Pipeline.mem_restRefs_of main_v15 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.Ref.lean ====
/-
  The reference's run read back: its result array is the specification's `result` of its seven argument arrays.

  Stage by stage the reference computes `x · U1`, then `· V1 + b1`, cuts the gate and up halves (columns `j` and
  `11008 + j`), forms `gate · (1 / (1 + e^(-gate))) · up`, then `· U2` and `· V2 + b2`; over the extended reals each
  matrix product is the plain sum over its contracted axis, and `y · (1 / (1 + e^(-y)))` is `silu y`. Read at the index
  (b, s, h) this is `out` at row `2048·b + s` of the flattened `x`.

  The proof goes inside-out, one lemma per stage, each stated at an index given by its coordinates (b, s, ·): the
  projection at (b, s, k), the hidden layer at (b, s, f), the activation at (b, s, j), the down projection at (b, s, k),
  the result at (b, s, h). At each stage the operand indices a contraction, a slice or a broadcast reads are the
  coordinate triples and pairs one expects; those index equations come first.
-/
import proofs.«108089_j28140625723484_1_alg».proof.Proof.Gen.ReferenceIdeal.Run
import proofs.«108089_j28140625723484_1_alg».proof.Proof.Gen.ReferenceIdeal.Read
import proofs.«108089_j28140625723484_1_alg».proof.Proof.Spec
import Idealize.ShloMosaic.PureOps.Ideal.Laws
import Idealize.ShloMosaic.Lib.ValueIdx
import Idealize.ShloMosaic.Lib.IdealHost

noncomputable section

namespace Cert.ReferenceIdeal.RefSpec

open Idealize.ShloMosaic Idealize.ShloMosaic.ValueIdx Cert.ReferenceIdeal Cert.ReferenceIdeal.Gen Cert.MlpSpec

/-! ## The operand indices each stage reads, by coordinates -/

/-- `x · U1` at (b, s, k) reads `x` at (b, s, h) … -/
theorem lidx_proj (b : Fin 2) (s : Fin 2048) (k : Fin 1024) (h : Fin 4096) :
    Read.lidx_main_v0 (ix3 b s k) h = ix3 b s h :=
  funext fun a => Fin.ext (by match a with | ⟨0, _⟩ => rfl | ⟨1, _⟩ => rfl | ⟨2, _⟩ => rfl)
/-- … and `U1` at (h, k). -/
theorem ridx_proj (b : Fin 2) (s : Fin 2048) (k : Fin 1024) (h : Fin 4096) :
    Read.ridx_main_v0 (ix3 b s k) h = ix2 h k :=
  funext fun a => Fin.ext (by match a with | ⟨0, _⟩ => rfl | ⟨1, _⟩ => rfl)

/-- `P · V1` at (b, s, f) reads `P` at (b, s, k) … -/
theorem lidx_hidden (b : Fin 2) (s : Fin 2048) (f : Fin 22016) (k : Fin 1024) :
    Read.lidx_main_v1 (ix3 b s f) k = ix3 b s k :=
  funext fun a => Fin.ext (by match a with | ⟨0, _⟩ => rfl | ⟨1, _⟩ => rfl | ⟨2, _⟩ => rfl)
/-- … and `V1` at (k, f). -/
theorem ridx_hidden (b : Fin 2) (s : Fin 2048) (f : Fin 22016) (k : Fin 1024) :
    Read.ridx_main_v1 (ix3 b s f) k = ix2 k f :=
  funext fun a => Fin.ext (by match a with | ⟨0, _⟩ => rfl | ⟨1, _⟩ => rfl)
/-- The bias `b1`, broadcast along the two leading axes, is read at `f`. -/
theorem idx_bias1 (b : Fin 2) (s : Fin 2048) (f : Fin 22016) :
    Read.idx_main_v2 (Read.idx_main_v3 (ix3 b s f)) = ix1 f :=
  funext fun a => Fin.ext (by match a with | ⟨0, _⟩ => rfl)

/-- The gate half at (b, s, j) is the hidden layer's column `j` … -/
theorem idx_gate (b : Fin 2) (s : Fin 2048) (j : Fin 11008) :
    Read.idx_main_v5 (ix3 b s j) = ix3 b s (gateCol j) :=
  funext fun a => Fin.ext (by match a with | ⟨0, _⟩ => rfl | ⟨1, _⟩ => rfl | ⟨2, _⟩ => rfl)
/-- … and the up half its column `11008 + j`. -/
theorem idx_up (b : Fin 2) (s : Fin 2048) (j : Fin 11008) :
    Read.idx_main_v6 (ix3 b s j) = ix3 b s (upCol j) :=
  funext fun a => Fin.ext (by match a with | ⟨0, _⟩ => rfl | ⟨1, _⟩ => rfl | ⟨2, _⟩ => rfl)

/-- `act · U2` at (b, s, k) reads `act` at (b, s, j) … -/
theorem lidx_down (b : Fin 2) (s : Fin 2048) (k : Fin 1024) (j : Fin 11008) :
    Read.lidx_main_v9 (ix3 b s k) j = ix3 b s j :=
  funext fun a => Fin.ext (by match a with | ⟨0, _⟩ => rfl | ⟨1, _⟩ => rfl | ⟨2, _⟩ => rfl)
/-- … and `U2` at (j, k). -/
theorem ridx_down (b : Fin 2) (s : Fin 2048) (k : Fin 1024) (j : Fin 11008) :
    Read.ridx_main_v9 (ix3 b s k) j = ix2 j k :=
  funext fun a => Fin.ext (by match a with | ⟨0, _⟩ => rfl | ⟨1, _⟩ => rfl)

/-- `Z · V2` at (b, s, h) reads `Z` at (b, s, k) … -/
theorem lidx_out (b : Fin 2) (s : Fin 2048) (h : Fin 4096) (k : Fin 1024) :
    Read.lidx_main_v10 (ix3 b s h) k = ix3 b s k :=
  funext fun a => Fin.ext (by match a with | ⟨0, _⟩ => rfl | ⟨1, _⟩ => rfl | ⟨2, _⟩ => rfl)
/-- … and `V2` at (k, h). -/
theorem ridx_out (b : Fin 2) (s : Fin 2048) (h : Fin 4096) (k : Fin 1024) :
    Read.ridx_main_v10 (ix3 b s h) k = ix2 k h :=
  funext fun a => Fin.ext (by match a with | ⟨0, _⟩ => rfl | ⟨1, _⟩ => rfl)
/-- The bias `b2`, broadcast along the two leading axes, is read at `h`. -/
theorem idx_bias2 (b : Fin 2) (s : Fin 2048) (h : Fin 4096) :
    Read.idx_main_v11 (Read.idx_main_v12 (ix3 b s h)) = ix1 h :=
  funext fun a => Fin.ext (by match a with | ⟨0, _⟩ => rfl)

/-! ## The stages -/

section
variable (x0 : (⟨S2x2048x4096, .f32⟩ : BufTy).Contents (Elt Ideal)) (x1 : (⟨S4096x1024, .f32⟩ : BufTy).Contents (Elt Ideal))
  (x2 : (⟨S1024x22016, .f32⟩ : BufTy).Contents (Elt Ideal)) (x3 : (⟨S11008x1024, .f32⟩ : BufTy).Contents (Elt Ideal))
  (x4 : (⟨S1024x4096, .f32⟩ : BufTy).Contents (Elt Ideal)) (x5 : (⟨S22016, .f32⟩ : BufTy).Contents (Elt Ideal))
  (x6 : (⟨S4096, .f32⟩ : BufTy).Contents (Elt Ideal))

/-- The first product at (b, s, k) is the rank-space projection of row `2048·b + s`. -/
theorem proj_at (b : Fin 2) (s : Fin 2048) (k : Fin 1024) :
    Read.val_main_v0 (F := Ideal) x0 x1 (ix3 b s k) = proj (flatX x0) (mat x1) (flatRow b s) k := by
  rw [Read.val_main_v0_apply]
  unfold proj
  refine Finset.sum_congr rfl fun h _ => ?_
  rw [lidx_proj, ridx_proj, flatX_flatRow]
  rfl

/-- The second product plus the broadcast bias at (b, s, f) is the hidden layer of that row at column `f`. -/
theorem hidden_at (b : Fin 2) (s : Fin 2048) (f : Fin 22016) :
    Read.val_main_v4 (F := Ideal) x0 x1 x2 x5 (ix3 b s f)
      = MlpSpec.hidden (flatX x0) (mat x1) (mat x2) (vec x5) (flatRow b s) f := by
  rw [Read.val_main_v4_apply, Read.val_main_v1_apply, Read.val_main_v3_apply, Read.val_main_v2_apply, idx_bias1,
    Ideal.addf_def]
  unfold MlpSpec.hidden
  congr 1
  refine Finset.sum_congr rfl fun k _ => ?_
  rw [lidx_hidden, ridx_hidden, proj_at]
  rfl

/-- The gate half times the logistic function of itself, times the up half, at (b, s, j), is the activation of that row
    at column `j`. -/
theorem act_at (b : Fin 2) (s : Fin 2048) (j : Fin 11008) :
    Read.val_main_v8 (F := Ideal) x0 x1 x2 x5 (ix3 b s j)
      = act (flatX x0) (mat x1) (mat x2) (vec x5) (flatRow b s) j := by
  rw [Read.val_main_v8_apply, Read.val_main_v7_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, Read.val_main_v5_apply,
    Read.val_main_v6_apply, idx_gate, idx_up, hidden_at, hidden_at]
  simp only [Ideal.mulf_def, Ideal.hostDivf_def, Ideal.addf_def, Ideal.hostUnary_exp_def, Ideal.hostNegf_def,
    Ideal.negf_def, Ideal.ofBits_def, Ideal.ofBits_one_f32]
  rw [silu_eq]
  rfl

/-- The third product at (b, s, k) is the rank-space down projection of that row. -/
theorem down_at (b : Fin 2) (s : Fin 2048) (k : Fin 1024) :
    Read.val_main_v9 (F := Ideal) x0 x1 x2 x3 x5 (ix3 b s k)
      = down (flatX x0) (mat x1) (mat x2) (mat x3) (vec x5) (flatRow b s) k := by
  rw [Read.val_main_v9_apply]
  unfold down
  refine Finset.sum_congr rfl fun j _ => ?_
  rw [lidx_down, ridx_down, act_at]
  rfl

/-- The last product plus the broadcast bias at (b, s, h) is the result of that row at feature `h`. -/
theorem out_at (b : Fin 2) (s : Fin 2048) (h : Fin 4096) :
    Read.val_main_v13 (F := Ideal) x0 x1 x2 x3 x4 x5 x6 (ix3 b s h)
      = out (flatX x0) (mat x1) (mat x2) (mat x3) (mat x4) (vec x5) (vec x6) (flatRow b s) h := by
  rw [Read.val_main_v13_apply, Read.val_main_v10_apply, Read.val_main_v12_apply, Read.val_main_v11_apply, idx_bias2,
    Ideal.addf_def]
  unfold out
  congr 1
  refine Finset.sum_congr rfl fun k _ => ?_
  rw [lidx_out, ridx_out, down_at]
  rfl

end

/-- The reference's last stage is the specification's result array. -/
theorem result_eq (x0 : (⟨S2x2048x4096, .f32⟩ : BufTy).Contents (Elt Ideal)) (x1 : (⟨S4096x1024, .f32⟩ : BufTy).Contents (Elt Ideal))
    (x2 : (⟨S1024x22016, .f32⟩ : BufTy).Contents (Elt Ideal)) (x3 : (⟨S11008x1024, .f32⟩ : BufTy).Contents (Elt Ideal))
    (x4 : (⟨S1024x4096, .f32⟩ : BufTy).Contents (Elt Ideal)) (x5 : (⟨S22016, .f32⟩ : BufTy).Contents (Elt Ideal))
    (x6 : (⟨S4096, .f32⟩ : BufTy).Contents (Elt Ideal)) :
    Cert.ReferenceIdeal.Read.val_main_v13 (F := Ideal) x0 x1 x2 x3 x4 x5 x6 = result x0 x1 x2 x3 x4 x5 x6 := by
  funext i
  obtain ⟨b, s, h, rfl⟩ : ∃ b s h, i = ix3 b s h := ⟨i 0, i 1, i 2, eq_ix3 i⟩
  rw [out_at]
  rfl

end Cert.ReferenceIdeal.RefSpec

end
-- ==== Proof.lean ====
/-
  A low-rank SwiGLU MLP, kernel against reference, over the extended reals.

  With `x` [2, 2048, 4096] flattened to 4096 rows, both programs compute

      out = (silu (P · V1g + b1g) ⊙ (P · V1u + b1u)) · U2 · V2 + b2,   P = x · U1,   silu y = y · logistic y,

  where V1g | V1u and b1g | b1u are the two halves (columns j and 11008 + j) of V1 and b1. The reference does it in
  one pass with four whole matrix products and spells the logistic function as 1 / (1 + e^(-y)). The kernel walks a
  grid of 16 row tiles by 43 chunks of 256 intermediate columns: at a tile's first chunk it stores the tile's rows of P
  and zeroes an accumulator, at every chunk it adds the chunk's share of (silu gate ⊙ up) · U2 to the accumulator, and
  at the last chunk it stores accumulator · V2 + b2 as the tile's rows of the result. A change of float format is the
  identity over the extended reals, a matrix product into a zero accumulator is the plain sum over the contracted axis,
  and the logistic function is by definition 1 / (1 + e^(-y)); so the two sides differ only in how the sum over the
  11008 intermediate columns is grouped, and addition of extended reals is commutative and associative. No finiteness
  of the inputs is used.

  The modules: Spec (the function and the regrouping law), Payload (the body's stored values at an index), Pieces and
  PointValues (what each grid point leaves in the carried scratch and the output block), HostIn and Blocks (the input
  arrays and their blocks as entries of the arguments), Steps and Invariant (the induction over the grid points),
  Result (the output blocks cover the array; the final reshape), Ref (the reference's run is the same function).
  The frames of the two kernel programs and the reference's run are generated modules this file imports.
-/
import proofs.«108089_j28140625723484_1_alg».proof.Defs
import proofs.«108089_j28140625723484_1_alg».proof.Proof.Gen.Kernel
import proofs.«108089_j28140625723484_1_alg».proof.Proof.Gen.Kernel.Skeleton
import proofs.«108089_j28140625723484_1_alg».proof.Proof.Gen.Kernel.Launch
import proofs.«108089_j28140625723484_1_alg».proof.Proof.Gen.Kernel.Points
import proofs.«108089_j28140625723484_1_alg».proof.Proof.Gen.Kernel.Frame
import proofs.«108089_j28140625723484_1_alg».proof.Proof.Gen.KernelIdeal
import proofs.«108089_j28140625723484_1_alg».proof.Proof.Gen.KernelIdeal.Skeleton
import proofs.«108089_j28140625723484_1_alg».proof.Proof.Gen.KernelIdeal.Launch
import proofs.«108089_j28140625723484_1_alg».proof.Proof.Gen.KernelIdeal.Points
import proofs.«108089_j28140625723484_1_alg».proof.Proof.Gen.KernelIdeal.Frame
import proofs.«108089_j28140625723484_1_alg».proof.Proof.Gen.ReferenceIdeal
import proofs.«108089_j28140625723484_1_alg».proof.Proof.Gen.ReferenceIdeal.Run
import proofs.«108089_j28140625723484_1_alg».proof.Proof.Gen.ReferenceIdeal.Read
import proofs.«108089_j28140625723484_1_alg».proof.Proof.Gen.Pre_finite_inputs
import proofs.«108089_j28140625723484_1_alg».proof.Proof.Result
import proofs.«108089_j28140625723484_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Both runs end with the result array at the specification's `result` of arguments that agree. -/
theorem algebraic : Cert.algebraic_KernelIdeal_ReferenceIdeal := by
  intro m ρ m' ρ' _ hagree
  refine ⟨fun c => Cert.MlpSpec.result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefSpec.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
